-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x2048 : Shape := ⟨2, ![11008, 2048]⟩
abbrev S11008x32 : Shape := ⟨2, ![11008, 32]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S4x2048x4096 .f32) (main_arg1 : IVec S11008x2048 32) (main_arg2 : FVec F S11008x32 .f32) (main_arg3 : FVec F S11008x32 .f32) (main_arg4 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008x32 .f32 := Host.absf main_arg3
  let main_cst_2 : FVec F S_ .f32 := constant S_ .f32 0x7F800000#32
  let main_v10 : FVec F S11008x32 .f32 := broadcastInDim S11008x32 ![] bcast_S_S11008x32 main_cst_2
  let main_v11 : IVec S11008x32 1 := cmpf .olt main_v9 main_v10
  let main_c_3 : IVec S_ 1 := constantI S_ 1 1#1
  let main_v12 : IVec S_ 1 := (fun x v => Host.reduce IntOp.andi x v reducesTo_S11008x32_S_d0_1 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S4x2048x4096 : Shape := ⟨3, ![4, 2048, 4096]⟩
abbrev S11008x2048 : Shape := ⟨2, ![11008, 2048]⟩
abbrev S11008x32 : Shape := ⟨2, ![11008, 32]⟩
abbrev S11008 : Shape := ⟨1, ![11008]⟩
abbrev S8192x4096 : Shape := ⟨2, ![8192, 4096]⟩
abbrev S_ : Shape := ⟨0, ![]⟩
abbrev S11008x2048x1 : Shape := ⟨3, ![11008, 2048, 1]⟩
abbrev S11008x2048x2 : Shape := ⟨3, ![11008, 2048, 2]⟩
abbrev S11008x32x128 : Shape := ⟨3, ![11008, 32, 128]⟩
abbrev S11008x32x1 : Shape := ⟨3, ![11008, 32, 1]⟩
abbrev S11008x4096 : Shape := ⟨2, ![11008, 4096]⟩
abbrev S1x11008 : Shape := ⟨2, ![1, 11008]⟩
abbrev S8192x11008 : Shape := ⟨2, ![8192, 11008]⟩
abbrev S1024x1024 : Shape := ⟨2, ![1024, 1024]⟩
abbrev S1408x1024 : Shape := ⟨2, ![1408, 1024]⟩
abbrev S1x1408 : Shape := ⟨2, ![1, 1408]⟩
abbrev S1024x1408 : Shape := ⟨2, ![1024, 1408]⟩
abbrev S4x2048x11008 : Shape := ⟨3, ![4, 2048, 11008]⟩

abbrev nBuf : Space → Nat
  | .hbm => 30
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S11008x2048, .i32⟩
  | .hbm, ⟨2, _⟩ => ⟨S11008x32, .f32⟩
  | .hbm, ⟨3, _⟩ => ⟨S11008x32, .f32⟩
  | .hbm, ⟨4, _⟩ => ⟨S11008, .f32⟩
  | .hbm, ⟨5, _⟩ => ⟨S8192x4096, .f32⟩
  | .hbm, ⟨6, _⟩ => ⟨S8192x4096, .bf16⟩
  | .hbm, ⟨7, _⟩ => ⟨S_, .i32⟩
  | .hbm, ⟨8, _⟩ => ⟨S11008x2048, .i32⟩
  | .hbm, ⟨9, _⟩ => ⟨S11008x2048, .i32⟩
  | .hbm, ⟨10, _⟩ => ⟨S11008x2048, .f32⟩
  | .hbm, ⟨11, _⟩ => ⟨S_, .i32⟩
  | .hbm, ⟨12, _⟩ => ⟨S11008x2048, .i32⟩
  | .hbm, ⟨13, _⟩ => ⟨S11008x2048, .i32⟩
  | .hbm, ⟨14, _⟩ => ⟨S11008x2048, .f32⟩
  | .hbm, ⟨15, _⟩ => ⟨S11008x2048x1, .f32⟩
  | .hbm, ⟨16, _⟩ => ⟨S11008x2048x1, .f32⟩
  | .hbm, ⟨17, _⟩ => ⟨S11008x2048x2, .f32⟩
  | .hbm, ⟨18, _⟩ => ⟨S11008x32x128, .f32⟩
  | .hbm, ⟨19, _⟩ => ⟨S11008x32x1, .f32⟩
  | .hbm, ⟨20, _⟩ => ⟨S11008x32x128, .f32⟩
  | .hbm, ⟨21, _⟩ => ⟨S11008x32x128, .f32⟩
  | .hbm, ⟨22, _⟩ => ⟨S11008x32x1, .f32⟩
  | .hbm, ⟨23, _⟩ => ⟨S11008x32x128, .f32⟩
  | .hbm, ⟨24, _⟩ => ⟨S11008x32x128, .f32⟩
  | .hbm, ⟨25, _⟩ => ⟨S11008x4096, .f32⟩
  | .hbm, ⟨26, _⟩ => ⟨S11008x4096, .bf16⟩
  | .hbm, ⟨27, _⟩ => ⟨S1x11008, .f32⟩
  | .hbm, ⟨28, _⟩ => ⟨S8192x11008, .f32⟩
  | .hbm, ⟨29, _⟩ => ⟨S4x2048x11008, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1x1408, .f32⟩
  | .local _ .vmem, ⟨5, _⟩ => ⟨S1x1408, .f32⟩
  | .local _ .vmem, ⟨6, _⟩ => ⟨S1024x1408, .f32⟩
  | .local _ .vmem, ⟨7, _⟩ => ⟨S1024x1408, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bitsLt_bf16_f32 : FTy.bits .bf16 < FTy.bits .f32
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x32x128 : S11008x2048x2.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  shapeCasts_S11008_S1x11008 : S11008.ShapeCasts S1x11008
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1408x1024_S1408x1024_0_0 : ∀ a, (![0, 0] : Fin 2 → Nat) a + S1408x1024.size a ≤ S1408x1024.size a
  h_S1408x1024 : 0 < S1408x1024.numel
  shapeCasts_S1408x1024_S1408x1024 : S1408x1024.ShapeCasts S1408x1024
  inb_S1x1408_S1x1408_0_0 : ∀ a, (![0, 0] : Fin 2 → Nat) a + S1x1408.size a ≤ S1x1408.size a
  h_S1x1408 : 0 < S1x1408.numel
  shapeCasts_S1x1408_S1x1408 : S1x1408.ShapeCasts S1x1408
  broadcasts_S1x1408_S1024x1408 : S1x1408.Broadcasts S1024x1408
  inb_S1024x1408_S1024x1408_0_0 : ∀ a, (![0, 0] : Fin 2 → Nat) a + S1024x1408.size a ≤ S1024x1408.size a
  h_S1024x1408 : 0 < S1024x1408.numel
  shapeCasts_S1024x1408_S1024x1408 : S1024x1408.ShapeCasts S1024x1408
  shapeCasts_S8192x11008_S4x2048x11008 : S8192x11008.ShapeCasts S4x2048x11008
  dot_S1024x1024_S1408x1024_S1024x1408_1_1_0_0_n_n_wf : DotDims.WF S1024x1024 S1408x1024 S1024x1408 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1408x1024.size a < S11008x4096.size a
  hwx0_1 : ∀ i : grid0.Coords, EltTy.bits .bf16 = 32 ∨ (Rect.unit (s := S11008x4096) (fun a => cc0_transform_1 i a * S1408x1024.size a) (fun a => (Pipeline.Clip.of (cc0_transform_1 i a) (S1408x1024.size a) (S11008x4096.size a)).extent (S1408x1024.size a)) fun a => Pipeline.Clip.inb (Pipeline.Clip.ok_of (hstart0_1 i a))).WholeWords (EltTy.packing .bf16)
  hwxs0_1 : ∀ i : grid0.Coords, EltTy.bits .bf16 = 32 ∨ (Rect.unit (s := S1408x1024) (fun _ => 0) (fun a => (Pipeline.Clip.of (cc0_transform_1 i a) (S1408x1024.size a) (S11008x4096.size a)).extent (S1408x1024.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x1408.size a < S1x11008.size a
  hwx0_2 : ∀ i : grid0.Coords, EltTy.bits .f32 = 32 ∨ (Rect.unit (s := S1x11008) (fun a => cc0_transform_2 i a * S1x1408.size a) (fun a => (Pipeline.Clip.of (cc0_transform_2 i a) (S1x1408.size a) (S1x11008.size a)).extent (S1x1408.size a)) fun a => Pipeline.Clip.inb (Pipeline.Clip.ok_of (hstart0_2 i a))).WholeWords (EltTy.packing .f32)
  hwxs0_2 : ∀ i : grid0.Coords, EltTy.bits .f32 = 32 ∨ (Rect.unit (s := S1x1408) (fun _ => 0) (fun a => (Pipeline.Clip.of (cc0_transform_2 i a) (S1x1408.size a) (S1x11008.size a)).extent (S1x1408.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x1408.size a < S8192x11008.size a
  hwx0_3 : ∀ i : grid0.Coords, EltTy.bits .f32 = 32 ∨ (Rect.unit (s := S8192x11008) (fun a => cc0_transform_3 i a * S1024x1408.size a) (fun a => (Pipeline.Clip.of (cc0_transform_3 i a) (S1024x1408.size a) (S8192x11008.size a)).extent (S1024x1408.size a)) fun a => Pipeline.Clip.inb (Pipeline.Clip.ok_of (hstart0_3 i a))).WholeWords (EltTy.packing .f32)
  hwxs0_3 : ∀ i : grid0.Coords, EltTy.bits .f32 = 32 ∨ (Rect.unit (s := S1024x1408) (fun _ => 0) (fun a => (Pipeline.Clip.of (cc0_transform_3 i a) (S1024x1408.size a) (S8192x11008.size a)).extent (S1024x1408.size a)) fun a => (Nat.zero_add _).trans_le (Pipeline.Clip.extent_le (Pipeline.Clip.ok_of (hstart0_3 i a)))).WholeWords (EltTy.packing .f32)

variable [Facts₀]

def dot_S1024x1024_S1408x1024_S1024x1408_1_1_0_0_n_n : DotDims S1024x1024 S1408x1024 S1024x1408 where
  lhsContracting := [1]
  rhsContracting := [1]
  lhsNonContracting := [0]
  rhsNonContracting := [0]
  lhsBatch := []
  rhsBatch := []
  wf := dot_S1024x1024_S1408x1024_S1024x1408_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v19) S1408x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v20) S1x1408.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v21) S1024x1408.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x2048 : Shape := ⟨2, ![11008, 2048]⟩
abbrev S11008x32 : Shape := ⟨2, ![11008, 32]⟩
abbrev S11008 : Shape := ⟨1, ![11008]⟩
abbrev S_ : Shape := ⟨0, ![]⟩
abbrev S11008x2048x1 : Shape := ⟨3, ![11008, 2048, 1]⟩
abbrev S11008x2048x2 : Shape := ⟨3, ![11008, 2048, 2]⟩
abbrev S11008x32x128 : Shape := ⟨3, ![11008, 32, 128]⟩
abbrev S11008x32x1 : Shape := ⟨3, ![11008, 32, 1]⟩
abbrev S11008x4096 : Shape := ⟨2, ![11008, 4096]⟩
abbrev S4x2048x11008 : Shape := ⟨3, ![4, 2048, 11008]⟩
abbrev S1x1x11008 : Shape := ⟨3, ![1, 1, 11008]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x2048, .i32⟩
  | .hbm, ⟨2, _⟩ => ⟨S11008x32, .f32⟩
  | .hbm, ⟨3, _⟩ => ⟨S11008x32, .f32⟩
  | .hbm, ⟨4, _⟩ => ⟨S11008, .f32⟩
  | .hbm, ⟨5, _⟩ => ⟨S_, .i32⟩
  | .hbm, ⟨6, _⟩ => ⟨S11008x2048, .i32⟩
  | .hbm, ⟨7, _⟩ => ⟨S11008x2048, .i32⟩
  | .hbm, ⟨8, _⟩ => ⟨S11008x2048, .f32⟩
  | .hbm, ⟨9, _⟩ => ⟨S_, .i32⟩
  | .hbm, ⟨10, _⟩ => ⟨S11008x2048, .i32⟩
  | .hbm, ⟨11, _⟩ => ⟨S11008x2048, .i32⟩
  | .hbm, ⟨12, _⟩ => ⟨S11008x2048, .f32⟩
  | .hbm, ⟨13, _⟩ => ⟨S11008x2048x1, .f32⟩
  | .hbm, ⟨14, _⟩ => ⟨S11008x2048x1, .f32⟩
  | .hbm, ⟨15, _⟩ => ⟨S11008x2048x2, .f32⟩
  | .hbm, ⟨16, _⟩ => ⟨S11008x32x128, .f32⟩
  | .hbm, ⟨17, _⟩ => ⟨S11008x32x1, .f32⟩
  | .hbm, ⟨18, _⟩ => ⟨S11008x32x128, .f32⟩
  | .hbm, ⟨19, _⟩ => ⟨S11008x32x128, .f32⟩
  | .hbm, ⟨20, _⟩ => ⟨S11008x32x1, .f32⟩
  | .hbm, ⟨21, _⟩ => ⟨S11008x32x128, .f32⟩
  | .hbm, ⟨22, _⟩ => ⟨S11008x32x128, .f32⟩
  | .hbm, ⟨23, _⟩ => ⟨S11008x4096, .f32⟩
  | .hbm, ⟨24, _⟩ => ⟨S4x2048x11008, .f32⟩
  | .hbm, ⟨25, _⟩ => ⟨S1x1x11008, .f32⟩
  | .hbm, ⟨26, _⟩ => ⟨S4x2048x11008, .f32⟩
  | .hbm, ⟨27, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x32x128 : S11008x2048x2.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.BodyB.lean ====
/-
  The kernel body as a Hoare triple on any four whole staging buffers holding x0 (the x tile), x1 (the weight tile),
  x2 (the bias tile) and x3 (the output tile as the previous point left it). At the first step of the contraction
  (k-tile 0) it leaves x0 · x1ᵀ + x2 (the bias broadcast down the rows) in the output tile; at a later step it leaves
  x3 + x0 · x1ᵀ. The inputs' buffers are left as found. The products and sums are the skeleton's payloads, at any
  float instance.
-/
import proofs.«410740_j18021682774288_3_alg».proof.Proof.Gen.Kernel.Frame
import proofs.«410740_j18021682774288_3_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A load of a whole rank-2 buffer through the rectangle at offsets zero reads its contents. -/
theorem load_whole {n0 n1 : Nat} {e : EltTy} (a : Memref sig .tc .vmem ⟨2, ![n0, n1]⟩ e) (ha : a.IsWhole)
    (x : (⟨2, ![n0, n1]⟩ : Shape).Idx → Elt F e) (inb : ∀ d, (![0, 0] : Fin 2 → Nat) d + (⟨2, ![n0, n1]⟩ : Shape).size d ≤ (⟨2, ![n0, n1]⟩ : Shape).size d) :
    View.readAt (Elt F) a.view (Rect.unit (s := ⟨2, ![n0, n1]⟩) ![0, 0] (⟨2, ![n0, n1]⟩ : Shape).size inb).toLoadRect (ha.unread x) = x := by
  have hz : (![0, 0] : Fin 2 → Nat) = fun _ => 0 := funext fun d => by fin_cases d <;> rfl
  rw [View.readAt_eq_ld, ha.read_unread, View.ld_unit_zero hz]

/-- After one store through that rectangle the buffer reads the stored value, whatever it held. -/
theorem read_store_whole {n0 n1 : Nat} {e : EltTy} (a : Memref sig .tc .vmem ⟨2, ![n0, n1]⟩ e) (f : a.view.ty.Contents (Elt F))
    (w : (⟨2, ![n0, n1]⟩ : Shape).Idx → Elt F e) (inb : ∀ d, (![0, 0] : Fin 2 → Nat) d + (⟨2, ![n0, n1]⟩ : Shape).size d ≤ (⟨2, ![n0, n1]⟩ : Shape).size d) :
    View.read (Elt F) a.view (a.view.writes (Elt F) f [⟨Rect.unit (s := ⟨2, ![n0, n1]⟩) ![0, 0] (⟨2, ![n0, n1]⟩ : Shape).size inb, w⟩]) = w := by
  have hz : (![0, 0] : Fin 2 → Nat) = fun _ => 0 := funext fun d => by fin_cases d <;> rfl
  rw [View.read_writes_eq_canon _ _ _ (fun y => ⟨⟨Rect.unit (s := ⟨2, ![n0, n1]⟩) ![0, 0] (⟨2, ![n0, n1]⟩ : Shape).size inb, w⟩,
    List.mem_singleton_self _, View.mem_set_unit_zero hz inb y⟩), View.canon_unit_zero hz]

set_option maxHeartbeats 1000000 in
/-- At the first step of the contraction the output tile is overwritten by the product plus the bias. -/
theorem sound_first (c : Dev nD) (i : grid0.Coords) (h1 : k0_cond1 i = 1#1) (h2 : ¬ k0_cond2 i = 1#1)
    (arg3 : Memref sig .tc .vmem S1024x1024 .bf16) (harg3 : arg3.IsWhole) (arg4 : Memref sig .tc .vmem S1408x1024 .bf16) (harg4 : arg4.IsWhole)
    (arg5 : Memref sig .tc .vmem S1x1408 .f32) (harg5 : arg5.IsWhole) (arg6 : Memref sig .tc .vmem S1024x1408 .f32) (harg6 : arg6.IsWhole)
    (x0 : Vec F S1024x1024 .bf16) (x1 : Vec F S1408x1024 .bf16) (x2 : Vec F S1x1408 .f32) (x3 : Vec F S1024x1408 .f32)
    (E : Set ℕ) (K : PUnit → sProp 𝕄) :
    iprop(owns (c : Thread nD τ) arg3 fullShare x0 ∗ owns (c : Thread nD τ) arg4 fullShare x1 ∗ owns (c : Thread nD τ) arg5 fullShare x2
          ∗ owns (c : Thread nD τ) arg6 fullShare x3
          ∗ (iprop(owns (c : Thread nD τ) arg3 fullShare x0 ∗ owns (c : Thread nD τ) arg4 fullShare x1 ∗ owns (c : Thread nD τ) arg5 fullShare x2
                ∗ owns (c : Thread nD τ) arg6 fullShare (k0_pay2 x0 x1 x2)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, Hk⟩
  obtain rfl := harg3.eq_unread hf0; obtain rfl := harg4.eq_unread hf1; obtain rfl := harg5.eq_unread hf2; obtain rfl := harg6.eq_unread hf3
  sl_exec (disch := first | exact h1 | exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact H3
  ipureintro
  refine (read_store_whole arg6 _ _ _).trans ?_
  rw [load_whole arg3 harg3, load_whole arg4 harg4, load_whole arg5 harg5]

set_option maxHeartbeats 1000000 in
/-- At a later step the product is added into the output tile. -/
theorem sound_later (c : Dev nD) (i : grid0.Coords) (h1 : ¬ k0_cond1 i = 1#1) (h2 : k0_cond2 i = 1#1)
    (arg3 : Memref sig .tc .vmem S1024x1024 .bf16) (harg3 : arg3.IsWhole) (arg4 : Memref sig .tc .vmem S1408x1024 .bf16) (harg4 : arg4.IsWhole)
    (arg5 : Memref sig .tc .vmem S1x1408 .f32) (harg5 : arg5.IsWhole) (arg6 : Memref sig .tc .vmem S1024x1408 .f32) (harg6 : arg6.IsWhole)
    (x0 : Vec F S1024x1024 .bf16) (x1 : Vec F S1408x1024 .bf16) (x2 : Vec F S1x1408 .f32) (x3 : Vec F S1024x1408 .f32)
    (E : Set ℕ) (K : PUnit → sProp 𝕄) :
    iprop(owns (c : Thread nD τ) arg3 fullShare x0 ∗ owns (c : Thread nD τ) arg4 fullShare x1 ∗ owns (c : Thread nD τ) arg5 fullShare x2
          ∗ owns (c : Thread nD τ) arg6 fullShare x3
          ∗ (iprop(owns (c : Thread nD τ) arg3 fullShare x0 ∗ owns (c : Thread nD τ) arg4 fullShare x1 ∗ owns (c : Thread nD τ) arg5 fullShare x2
                ∗ owns (c : Thread nD τ) arg6 fullShare (k0_pay3 x0 x1 x3)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, Hk⟩
  obtain rfl := harg3.eq_unread hf0; obtain rfl := harg4.eq_unread hf1; obtain rfl := harg5.eq_unread hf2; obtain rfl := harg6.eq_unread hf3
  sl_exec (disch := first | exact h1 | exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact H3
  ipureintro
  refine (read_store_whole arg6 _ _ _).trans ?_
  rw [load_whole arg3 harg3, load_whole arg4 harg4, load_whole arg6 harg6]

end Cert.Kernel.Hand

end
-- ==== Proof.DataB.lean ====
/-
  The proof data of the one pallas_call, at any float instance. After the body at a point: the x tile's buffer holds
  its block; the weight tile's and the bias tile's buffers hold their blocks on the part inside the array (the tiles
  of the last output-column tile overhang the arrays: past the end the buffers hold words nothing names); the output
  tile's buffer holds `acc c t`, a parameter: the running sum of the contraction. What the body finds: the inputs
  as fetched; the output tile fresh at the first step of a contraction and as the previous step left it afterwards.
-/
import proofs.«410740_j18021682774288_3_alg».proof.Proof.Gen.Kernel.Frame
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The first branch of the body is taken at the first step of each contraction (k-tile 0), -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
/-- the second at the later steps. -/
theorem hcond2 : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-- One of the two branches stores into the output tile at every point. -/
theorem live3 (i : grid0.Coords) : cfg0.idle 3 i = false := by
  show (!(k0_cond1 i == 1#1) && !(k0_cond2 i == 1#1)) = false
  unfold k0_cond1 k0_cond2
  generalize i 2 = k
  revert k; decide

/-! ## The proof data -/

/-- The weight tile at point `t`: its block on the part inside the array. -/
def tile1 (c : Dev nD) (t : Fin cfg0.N) : S1408x1024.Idx → Elt F .bf16 :=
  win0_1.fill (grid0.coords t) (fun _ => Classical.choice (Elt.nonempty F _)) (iblk m c 1 t)
/-- The bias tile at point `t`, likewise. -/
def tile2 (c : Dev nD) (t : Fin cfg0.N) : S1x1408.Idx → Elt F .f32 :=
  win0_2.fill (grid0.coords t) (fun _ => Classical.choice (Elt.nonempty F _)) (iblk m c 2 t)

/-- The proof data on device `c`. -/
def dats (acc : Dev nD → Fin cfg0.N → S1024x1408.Idx → Elt F .f32) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => tile1 m c t
    | ⟨2, _⟩ => tile2 m c t
    | ⟨3, _⟩ => acc c t
  Φ _ := Pipeline.ΦA spec0 c
  q _ := fullShare
  owed _ := 0

variable (acc : Dev nD → Fin cfg0.N → S1024x1408.Idx → Elt F .f32)

theorem A_eq (c : Dev nD) (w : Fin cfg0.W) : (dats m acc 0 c).A w = V m c (Pipeline.arrRef spec0 w) := rfl

/-! ## What the body finds -/

theorem before0 (c : Dev nD) (t : Fin cfg0.N) (d) : (dats m acc 0 c).before 0 t d = iblk m c 0 t :=
  before0_0_of m (dats m acc 0 c) rfl (fun _ => rfl) t d

theorem before1 (c : Dev nD) (t : Fin cfg0.N) (d) :
    (dats m acc 0 c).before 1 t d = win0_1.fill (grid0.coords t) d (iblk m c 1 t) :=
  (dats m acc 0 c).before_fetched 1 t (fetch0_1 t) d

theorem before2 (c : Dev nD) (t : Fin cfg0.N) (d) :
    (dats m acc 0 c).before 2 t d = win0_2.fill (grid0.coords t) d (iblk m c 2 t) :=
  (dats m acc 0 c).before_in_eq_fetched 2 rfl (fun _ => rfl)
    (fun t t' h => funext fun a => by
      show Pipeline.Clip.of (win0_2.index t a) _ _ = Pipeline.Clip.of (win0_2.index t' a) _ _
      rw [h])
    (fun t => win0_2.cut_fill _ _ _) t d

theorem before3_first (c : Dev nD) (t : Fin cfg0.N) (h : t.val % 4 = 0) (d) : (dats m acc 0 c).before 3 t d = d := by
  refine (dats m acc 0 c).before_out_reset 3 rfl t ?_ d
  by_cases h0 : t.val = 0
  · exact .inl h0
  · exact .inr ⟨h0, (flush0_3 _).mpr (by show (t.val - 1) % 4 = 3; omega)⟩

theorem before3_later (c : Dev nD) (t : Fin cfg0.N) (h : ¬ t.val % 4 = 0) (d) :
    (dats m acc 0 c).before 3 t d
      = win0_3.fill (grid0.coords ⟨t.val - 1, Nat.lt_of_le_of_lt (Nat.sub_le _ _) t.isLt⟩) d
          (win0_3.cut (grid0.coords ⟨t.val - 1, Nat.lt_of_le_of_lt (Nat.sub_le _ _) t.isLt⟩) (acc c ⟨t.val - 1, Nat.lt_of_le_of_lt (Nat.sub_le _ _) t.isLt⟩)) := by
  have hfl : (cfg0.win 3).flush ⟨t.val - 1, Nat.lt_of_le_of_lt (Nat.sub_le _ _) t.isLt⟩ = false := by
    rw [Bool.eq_false_iff]; intro hf
    have := (flush0_3 _).mp hf
    have : (t.val - 1) % 4 = 3 := this
    omega
  exact (dats m acc 0 c).before_out_acc 3 rfl t (fun h0 => h (by rw [h0])) hfl live3 d

end Cert.Kernel.Hand

end
-- ==== Proof.ObligB.lean ====
/-
  The body obligation of the pallas_call, at any float instance: at every point the body, handed the staging buffers
  as the pipeline leaves them, hands them back as the proof data says. The inputs come back as found. The output
  tile comes back holding the product plus the bias (first step of a contraction) or the previous contents plus the
  product (later steps); the obligation only asks for these contents on the part of the tile inside the array, which
  is where the two hypotheses `hfirst` / `hlater` say they are `acc c t`. A second form asks nothing of the output
  tile at all.
-/
import proofs.«410740_j18021682774288_3_alg».proof.Proof.BodyB
import proofs.«410740_j18021682774288_3_alg».proof.Proof.DataB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (acc : Dev nD → Fin cfg0.N → S1024x1408.Idx → Elt F .f32)

/-- The x tile at point `t`, at its literal type. -/
abbrev xtile (c : Dev nD) (t : Fin cfg0.N) : Vec F S1024x1024 .bf16 := iblk m c 0 t

/-- The point before `t`. -/
abbrev prev (t : Fin cfg0.N) : Fin cfg0.N := ⟨t.val - 1, Nat.lt_of_le_of_lt (Nat.sub_le _ _) t.isLt⟩

set_option maxHeartbeats 1000000 in
theorem obligation (c : Dev nD)
    (hfirst : ∀ t : Fin cfg0.N, t.val % 4 = 0 → ∀ (X1 : S1408x1024.Idx → Elt F .bf16) (X2 : S1x1408.Idx → Elt F .f32),
        win0_1.cut (grid0.coords t) X1 = iblk m c 1 t → win0_2.cut (grid0.coords t) X2 = iblk m c 2 t →
        win0_3.cut (grid0.coords t) (k0_pay2 (xtile m c t) X1 X2) = win0_3.cut (grid0.coords t) (acc c t))
    (hlater : ∀ t : Fin cfg0.N, ¬ t.val % 4 = 0 → ∀ (X1 : S1408x1024.Idx → Elt F .bf16) (X3 : S1024x1408.Idx → Elt F .f32),
        win0_1.cut (grid0.coords t) X1 = iblk m c 1 t →
        win0_3.cut (grid0.coords (prev t)) X3 = win0_3.cut (grid0.coords (prev t)) (acc c (prev t)) →
        win0_3.cut (grid0.coords t) (k0_pay3 (xtile m c t) X1 X3) = win0_3.cut (grid0.coords t) (acc c t)) :
    BodyObligationLoose (dats m acc 0 c) (defs₀ (F := F)) Variants.none () Set.univ := fun t => by
  rw [bigSep_W0, bigSep_W0]
  simp only [live3 (grid0.coords t)]
  rw [show (dats m acc 0 c).Φ t.succ = (dats m acc 0 c).Φ t.castSucc from rfl,
    show (dats m acc 0 c).owesAt () t.succ = (dats m acc 0 c).owesAt () t.castSucc from rfl]
  change _ ⊢ wp frame (wpE (defs₀ (F := F)) Variants.none c none) Set.univ (bodyAt0 t) _
  unfold bodyAt0
  iintro ⟨HΦ, Ho, ⟨%d0, H0⟩, ⟨%d1, H1⟩, ⟨%d2, H2⟩, ⟨%d3, H3⟩⟩
  rw [before0 m acc c t d0, before1 m acc c t d1, before2 m acc c t d2]
  rw [show idle0 3 (grid0.coords t) = false from live3 (grid0.coords t)]
  dsimp only
  by_cases h0 : t.val % 4 = 0
  · rw [before3_first m acc c t h0 d3]
    have key := sound_first (F := F) c (grid0.coords t) ((hcond1 t).mpr h0) (fun h => (hcond2 t).mp h h0)
      (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (xtile m c t) (win0_1.fill (grid0.coords t) d1 (iblk m c 1 t)) (win0_2.fill (grid0.coords t) d2 (iblk m c 2 t)) d3 Set.univ
    iapply (key _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]
    · iexists d1
      rw [show (win0 1).cut (grid0.coords t) ((dats m acc 0 c).after 1 t) = iblk m c 1 t from win0_1.cut_fill _ _ _]
      iexact H1
    isplitl [H2]
    · iexists d2
      rw [show (win0 2).cut (grid0.coords t) ((dats m acc 0 c).after 2 t) = iblk m c 2 t from win0_2.cut_fill _ _ _]
      iexact H2
    · iexists (k0_pay2 (xtile m c t) (win0_1.fill (grid0.coords t) d1 (iblk m c 1 t)) (win0_2.fill (grid0.coords t) d2 (iblk m c 2 t)))
      rw [show (dats m acc 0 c).after 3 t = acc c t from rfl,
        ← hfirst t h0 _ _ (win0_1.cut_fill _ _ _) (win0_2.cut_fill _ _ _), Window.fill_cut]
      iexact H3
  · rw [before3_later m acc c t h0 d3]
    have key := sound_later (F := F) c (grid0.coords t) (fun h => h0 ((hcond1 t).mp h)) ((hcond2 t).mpr h0)
      (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (xtile m c t) (win0_1.fill (grid0.coords t) d1 (iblk m c 1 t)) (win0_2.fill (grid0.coords t) d2 (iblk m c 2 t))
      (win0_3.fill (grid0.coords (prev t)) d3 (win0_3.cut (grid0.coords (prev t)) (acc c (prev t)))) Set.univ
    iapply (key _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]
    · iexists d1
      rw [show (win0 1).cut (grid0.coords t) ((dats m acc 0 c).after 1 t) = iblk m c 1 t from win0_1.cut_fill _ _ _]
      iexact H1
    isplitl [H2]
    · iexists d2
      rw [show (win0 2).cut (grid0.coords t) ((dats m acc 0 c).after 2 t) = iblk m c 2 t from win0_2.cut_fill _ _ _]
      iexact H2
    · iexists (k0_pay3 (xtile m c t) (win0_1.fill (grid0.coords t) d1 (iblk m c 1 t))
        (win0_3.fill (grid0.coords (prev t)) d3 (win0_3.cut (grid0.coords (prev t)) (acc c (prev t)))))
      rw [show (dats m acc 0 c).after 3 t = acc c t from rfl,
        ← hlater t h0 _ _ (win0_1.cut_fill _ _ _) (win0_3.cut_fill _ _ _), Window.fill_cut]
      iexact H3

end Cert.Kernel.Hand

end
-- ==== Proof.RunB.lean ====
/-
  The launch: @main runs its host operations, the pallas_call at every grid point, and the closing reshape, to a final
  state in which the windows' arrays hold what the proof data says and every other buffer what it held; in particular
  the five arguments are unchanged. Two forms: with the output tile's contents named point by point (the output
  array then ends at `Dat.arrAt 3 N`), and with nothing said of the output (the frame alone).
-/
import proofs.«410740_j18021682774288_3_alg».proof.Proof.ObligB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (acc : Dev nD → Fin cfg0.N → S1024x1408.Idx → Elt F .f32)

/-! ## With the output tile named -/

set_option backward.isDefEq.respectTransparency.types false in
theorem run_main (hbody : ∀ c, BodyObligationLoose (dats m acc 0 c) (defs₀ (F := F)) Variants.none () Set.univ) :
    θ_run defs (onTc (τ := τ) (main (F := F))) (s₀ m ρ)
      (Pipeline.FramePost cfgs (dats m acc) 0 (Pipeline.afterTail₀ cfgs (dats m acc) 0 (V0 m) [hostOps1])) :=
  Pipeline.θ_run_frame_around cfgs (dats m acc) (0 : Fin 1) launch0 defs₀ Variants.none m ρ main
    (hbody := hbody) (hshare := fun c => (dats m acc 0 c).share_full fun _ => rfl)
    (howed := fun _ _ => rfl) (V₀ := V0 m) (opss := [hostOps1]) (hsub := sfx_sub) (hfresh := sfx_fresh) (hkeep := sfx_keeps)
    (hmain := hmain m Variants.none) (hA := A_eq m acc) (hΦ := fun _ _ => rfl)

/-! ## With nothing said of the output tile -/

/-- Only the output window is forgotten. -/
abbrev fgt3 : Fin cfg0.W → Bool := fun | 0 => false | 1 => false | 2 => false | 3 => true | ⟨_ + 4, h⟩ => absurd h (Nat.not_lt.2 (Nat.le_add_left _ _))

set_option maxHeartbeats 1000000 in
theorem obligation_forget (c : Dev nD) :
    BodyObligationLoose (dats m acc 0 c) (defs₀ (F := F)) Variants.none () Set.univ fgt3 := fun t => by
  rw [bigSep_W0, bigSep_W0]
  simp only
  rw [show (dats m acc 0 c).Φ t.succ = (dats m acc 0 c).Φ t.castSucc from rfl,
    show (dats m acc 0 c).owesAt () t.succ = (dats m acc 0 c).owesAt () t.castSucc from rfl]
  change _ ⊢ wp frame (wpE (defs₀ (F := F)) Variants.none c none) Set.univ (bodyAt0 t) _
  unfold bodyAt0
  iintro ⟨HΦ, Ho, ⟨%d0, H0⟩, ⟨%d1, H1⟩, ⟨%d2, H2⟩, ⟨%X3, H3⟩⟩
  rw [before0 m acc c t d0, before1 m acc c t d1, before2 m acc c t d2]
  by_cases h0 : t.val % 4 = 0
  · have key := sound_first (F := F) c (grid0.coords t) ((hcond1 t).mpr h0) (fun h => (hcond2 t).mp h h0)
      (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (xtile m c t) (win0_1.fill (grid0.coords t) d1 (iblk m c 1 t)) (win0_2.fill (grid0.coords t) d2 (iblk m c 2 t)) X3 Set.univ
    iapply (key _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]
    · iexists d1
      rw [show (win0 1).cut (grid0.coords t) ((dats m acc 0 c).after 1 t) = iblk m c 1 t from win0_1.cut_fill _ _ _]
      iexact H1
    isplitl [H2]
    · iexists d2
      rw [show (win0 2).cut (grid0.coords t) ((dats m acc 0 c).after 2 t) = iblk m c 2 t from win0_2.cut_fill _ _ _]
      iexact H2
    · iexists _; iexact H3
  · have key := sound_later (F := F) c (grid0.coords t) (fun h => h0 ((hcond1 t).mp h)) ((hcond2 t).mpr h0)
      (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (xtile m c t) (win0_1.fill (grid0.coords t) d1 (iblk m c 1 t)) (win0_2.fill (grid0.coords t) d2 (iblk m c 2 t)) X3 Set.univ
    iapply (key _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]
    · iexists d1
      rw [show (win0 1).cut (grid0.coords t) ((dats m acc 0 c).after 1 t) = iblk m c 1 t from win0_1.cut_fill _ _ _]
      iexact H1
    isplitl [H2]
    · iexists d2
      rw [show (win0 2).cut (grid0.coords t) ((dats m acc 0 c).after 2 t) = iblk m c 2 t from win0_2.cut_fill _ _ _]
      iexact H2
    · iexists _; iexact H3

/-- The closing reshape writes the result buffer only. -/
theorem sfx_writes : ∀ ops ∈ ([hostOps1] : List (List (HloOp τ sig (Elt F)))), ∀ op ∈ ops, ∀ b : Ref sig .tc,
    Proc.devRef .tc b ∈ op.writes → b ∈ ({main_v22} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  rw [Finset.mem_singleton]
  by_contra hne
  exact StableHlo.devRef_ne_of_ne hne hb

set_option backward.isDefEq.respectTransparency.types false in
theorem run_forget :
    θ_run defs (onTc (τ := τ) (main (F := F))) (s₀ m ρ)
      (RDat.FramePostR cfg0 (fun c => (dats m acc 0 c).toRForget fgt3) {main_v22} (V m)) :=
  Pipeline.RDat.θ_run_frame_around_T cfgs (0 : Fin 1) launch0 defs₀ Variants.none
    (fun c => (dats m acc 0 c).toRForget fgt3) {main_v22} m ρ main
    (hbody := fun c => (obligation_forget m acc c).toRForget)
    (hshare := fun c => ((dats m acc 0 c).toRForget fgt3).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m acc) (hΦ := fun _ _ => rfl)

/-- The frame: every execution ends, faults nowhere, and leaves the five arguments as they were. -/
theorem frame_forget :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c),
     ((h c).2 main_arg3 (Finset.mem_sdiff.mpr ⟨Pipeline.mem_restRefs_of main_arg3 (by decide) (by decide), by decide⟩)).trans (V_main_arg3 m c),
     ((h c).2 main_arg4 (Finset.mem_sdiff.mpr ⟨Pipeline.mem_restRefs_of main_arg4 (by decide) (by decide), by decide⟩)).trans (V_main_arg4 m c)⟩)
    (run_forget m ρ fun _ _ _ => Classical.choice (Elt.nonempty F _))

end Cert.Kernel.Hand

end
-- ==== Proof.BodyI.lean ====
/-
  The kernel body as a Hoare triple on any four whole staging buffers holding x0 (the x tile), x1 (the weight tile),
  x2 (the bias tile) and x3 (the output tile as the previous point left it). At the first step of the contraction
  (k-tile 0) it leaves x0 · x1ᵀ + x2 (the bias broadcast down the rows) in the output tile; at a later step it leaves
  x3 + x0 · x1ᵀ. The inputs' buffers are left as found. The products and sums are the skeleton's payloads, at any
  float instance.
-/
import proofs.«410740_j18021682774288_3_alg».proof.Proof.Gen.KernelIdeal.Frame
import proofs.«410740_j18021682774288_3_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A load of a whole rank-2 buffer through the rectangle at offsets zero reads its contents. -/
theorem load_whole {n0 n1 : Nat} {e : EltTy} (a : Memref sig .tc .vmem ⟨2, ![n0, n1]⟩ e) (ha : a.IsWhole)
    (x : (⟨2, ![n0, n1]⟩ : Shape).Idx → Elt F e) (inb : ∀ d, (![0, 0] : Fin 2 → Nat) d + (⟨2, ![n0, n1]⟩ : Shape).size d ≤ (⟨2, ![n0, n1]⟩ : Shape).size d) :
    View.readAt (Elt F) a.view (Rect.unit (s := ⟨2, ![n0, n1]⟩) ![0, 0] (⟨2, ![n0, n1]⟩ : Shape).size inb).toLoadRect (ha.unread x) = x := by
  have hz : (![0, 0] : Fin 2 → Nat) = fun _ => 0 := funext fun d => by fin_cases d <;> rfl
  rw [View.readAt_eq_ld, ha.read_unread, View.ld_unit_zero hz]

/-- After one store through that rectangle the buffer reads the stored value, whatever it held. -/
theorem read_store_whole {n0 n1 : Nat} {e : EltTy} (a : Memref sig .tc .vmem ⟨2, ![n0, n1]⟩ e) (f : a.view.ty.Contents (Elt F))
    (w : (⟨2, ![n0, n1]⟩ : Shape).Idx → Elt F e) (inb : ∀ d, (![0, 0] : Fin 2 → Nat) d + (⟨2, ![n0, n1]⟩ : Shape).size d ≤ (⟨2, ![n0, n1]⟩ : Shape).size d) :
    View.read (Elt F) a.view (a.view.writes (Elt F) f [⟨Rect.unit (s := ⟨2, ![n0, n1]⟩) ![0, 0] (⟨2, ![n0, n1]⟩ : Shape).size inb, w⟩]) = w := by
  have hz : (![0, 0] : Fin 2 → Nat) = fun _ => 0 := funext fun d => by fin_cases d <;> rfl
  rw [View.read_writes_eq_canon _ _ _ (fun y => ⟨⟨Rect.unit (s := ⟨2, ![n0, n1]⟩) ![0, 0] (⟨2, ![n0, n1]⟩ : Shape).size inb, w⟩,
    List.mem_singleton_self _, View.mem_set_unit_zero hz inb y⟩), View.canon_unit_zero hz]

set_option maxHeartbeats 1000000 in
/-- At the first step of the contraction the output tile is overwritten by the product plus the bias. -/
theorem sound_first (c : Dev nD) (i : grid0.Coords) (h1 : k0_cond1 i = 1#1) (h2 : ¬ k0_cond2 i = 1#1)
    (arg3 : Memref sig .tc .vmem S1024x1024 .bf16) (harg3 : arg3.IsWhole) (arg4 : Memref sig .tc .vmem S1408x1024 .bf16) (harg4 : arg4.IsWhole)
    (arg5 : Memref sig .tc .vmem S1x1408 .f32) (harg5 : arg5.IsWhole) (arg6 : Memref sig .tc .vmem S1024x1408 .f32) (harg6 : arg6.IsWhole)
    (x0 : Vec F S1024x1024 .bf16) (x1 : Vec F S1408x1024 .bf16) (x2 : Vec F S1x1408 .f32) (x3 : Vec F S1024x1408 .f32)
    (E : Set ℕ) (K : PUnit → sProp 𝕄) :
    iprop(owns (c : Thread nD τ) arg3 fullShare x0 ∗ owns (c : Thread nD τ) arg4 fullShare x1 ∗ owns (c : Thread nD τ) arg5 fullShare x2
          ∗ owns (c : Thread nD τ) arg6 fullShare x3
          ∗ (iprop(owns (c : Thread nD τ) arg3 fullShare x0 ∗ owns (c : Thread nD τ) arg4 fullShare x1 ∗ owns (c : Thread nD τ) arg5 fullShare x2
                ∗ owns (c : Thread nD τ) arg6 fullShare (k0_pay2 x0 x1 x2)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, Hk⟩
  obtain rfl := harg3.eq_unread hf0; obtain rfl := harg4.eq_unread hf1; obtain rfl := harg5.eq_unread hf2; obtain rfl := harg6.eq_unread hf3
  sl_exec (disch := first | exact h1 | exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact H3
  ipureintro
  refine (read_store_whole arg6 _ _ _).trans ?_
  rw [load_whole arg3 harg3, load_whole arg4 harg4, load_whole arg5 harg5]

set_option maxHeartbeats 1000000 in
/-- At a later step the product is added into the output tile. -/
theorem sound_later (c : Dev nD) (i : grid0.Coords) (h1 : ¬ k0_cond1 i = 1#1) (h2 : k0_cond2 i = 1#1)
    (arg3 : Memref sig .tc .vmem S1024x1024 .bf16) (harg3 : arg3.IsWhole) (arg4 : Memref sig .tc .vmem S1408x1024 .bf16) (harg4 : arg4.IsWhole)
    (arg5 : Memref sig .tc .vmem S1x1408 .f32) (harg5 : arg5.IsWhole) (arg6 : Memref sig .tc .vmem S1024x1408 .f32) (harg6 : arg6.IsWhole)
    (x0 : Vec F S1024x1024 .bf16) (x1 : Vec F S1408x1024 .bf16) (x2 : Vec F S1x1408 .f32) (x3 : Vec F S1024x1408 .f32)
    (E : Set ℕ) (K : PUnit → sProp 𝕄) :
    iprop(owns (c : Thread nD τ) arg3 fullShare x0 ∗ owns (c : Thread nD τ) arg4 fullShare x1 ∗ owns (c : Thread nD τ) arg5 fullShare x2
          ∗ owns (c : Thread nD τ) arg6 fullShare x3
          ∗ (iprop(owns (c : Thread nD τ) arg3 fullShare x0 ∗ owns (c : Thread nD τ) arg4 fullShare x1 ∗ owns (c : Thread nD τ) arg5 fullShare x2
                ∗ owns (c : Thread nD τ) arg6 fullShare (k0_pay3 x0 x1 x3)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, Hk⟩
  obtain rfl := harg3.eq_unread hf0; obtain rfl := harg4.eq_unread hf1; obtain rfl := harg5.eq_unread hf2; obtain rfl := harg6.eq_unread hf3
  sl_exec (disch := first | exact h1 | exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact H3
  ipureintro
  refine (read_store_whole arg6 _ _ _).trans ?_
  rw [load_whole arg3 harg3, load_whole arg4 harg4, load_whole arg6 harg6]

end Cert.KernelIdeal.Hand

end
-- ==== Proof.DataI.lean ====
/-
  The proof data of the one pallas_call, at any float instance. After the body at a point: the x tile's buffer holds
  its block; the weight tile's and the bias tile's buffers hold their blocks on the part inside the array (the tiles
  of the last output-column tile overhang the arrays: past the end the buffers hold words nothing names); the output
  tile's buffer holds `acc c t`, a parameter: the running sum of the contraction. What the body finds: the inputs
  as fetched; the output tile fresh at the first step of a contraction and as the previous step left it afterwards.
-/
import proofs.«410740_j18021682774288_3_alg».proof.Proof.Gen.KernelIdeal.Frame
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The first branch of the body is taken at the first step of each contraction (k-tile 0), -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
/-- the second at the later steps. -/
theorem hcond2 : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-- One of the two branches stores into the output tile at every point. -/
theorem live3 (i : grid0.Coords) : cfg0.idle 3 i = false := by
  show (!(k0_cond1 i == 1#1) && !(k0_cond2 i == 1#1)) = false
  unfold k0_cond1 k0_cond2
  generalize i 2 = k
  revert k; decide

/-! ## The proof data -/

/-- The weight tile at point `t`: its block on the part inside the array. -/
def tile1 (c : Dev nD) (t : Fin cfg0.N) : S1408x1024.Idx → Elt F .bf16 :=
  win0_1.fill (grid0.coords t) (fun _ => Classical.choice (Elt.nonempty F _)) (iblk m c 1 t)
/-- The bias tile at point `t`, likewise. -/
def tile2 (c : Dev nD) (t : Fin cfg0.N) : S1x1408.Idx → Elt F .f32 :=
  win0_2.fill (grid0.coords t) (fun _ => Classical.choice (Elt.nonempty F _)) (iblk m c 2 t)

/-- The proof data on device `c`. -/
def dats (acc : Dev nD → Fin cfg0.N → S1024x1408.Idx → Elt F .f32) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => tile1 m c t
    | ⟨2, _⟩ => tile2 m c t
    | ⟨3, _⟩ => acc c t
  Φ _ := Pipeline.ΦA spec0 c
  q _ := fullShare
  owed _ := 0

variable (acc : Dev nD → Fin cfg0.N → S1024x1408.Idx → Elt F .f32)

theorem A_eq (c : Dev nD) (w : Fin cfg0.W) : (dats m acc 0 c).A w = V m c (Pipeline.arrRef spec0 w) := rfl

/-! ## What the body finds -/

theorem before0 (c : Dev nD) (t : Fin cfg0.N) (d) : (dats m acc 0 c).before 0 t d = iblk m c 0 t :=
  before0_0_of m (dats m acc 0 c) rfl (fun _ => rfl) t d

theorem before1 (c : Dev nD) (t : Fin cfg0.N) (d) :
    (dats m acc 0 c).before 1 t d = win0_1.fill (grid0.coords t) d (iblk m c 1 t) :=
  (dats m acc 0 c).before_fetched 1 t (fetch0_1 t) d

theorem before2 (c : Dev nD) (t : Fin cfg0.N) (d) :
    (dats m acc 0 c).before 2 t d = win0_2.fill (grid0.coords t) d (iblk m c 2 t) :=
  (dats m acc 0 c).before_in_eq_fetched 2 rfl (fun _ => rfl)
    (fun t t' h => funext fun a => by
      show Pipeline.Clip.of (win0_2.index t a) _ _ = Pipeline.Clip.of (win0_2.index t' a) _ _
      rw [h])
    (fun t => win0_2.cut_fill _ _ _) t d

theorem before3_first (c : Dev nD) (t : Fin cfg0.N) (h : t.val % 4 = 0) (d) : (dats m acc 0 c).before 3 t d = d := by
  refine (dats m acc 0 c).before_out_reset 3 rfl t ?_ d
  by_cases h0 : t.val = 0
  · exact .inl h0
  · exact .inr ⟨h0, (flush0_3 _).mpr (by show (t.val - 1) % 4 = 3; omega)⟩

theorem before3_later (c : Dev nD) (t : Fin cfg0.N) (h : ¬ t.val % 4 = 0) (d) :
    (dats m acc 0 c).before 3 t d
      = win0_3.fill (grid0.coords ⟨t.val - 1, Nat.lt_of_le_of_lt (Nat.sub_le _ _) t.isLt⟩) d
          (win0_3.cut (grid0.coords ⟨t.val - 1, Nat.lt_of_le_of_lt (Nat.sub_le _ _) t.isLt⟩) (acc c ⟨t.val - 1, Nat.lt_of_le_of_lt (Nat.sub_le _ _) t.isLt⟩)) := by
  have hfl : (cfg0.win 3).flush ⟨t.val - 1, Nat.lt_of_le_of_lt (Nat.sub_le _ _) t.isLt⟩ = false := by
    rw [Bool.eq_false_iff]; intro hf
    have := (flush0_3 _).mp hf
    have : (t.val - 1) % 4 = 3 := this
    omega
  exact (dats m acc 0 c).before_out_acc 3 rfl t (fun h0 => h (by rw [h0])) hfl live3 d

end Cert.KernelIdeal.Hand

end
-- ==== Proof.ObligI.lean ====
/-
  The body obligation of the pallas_call, at any float instance: at every point the body, handed the staging buffers
  as the pipeline leaves them, hands them back as the proof data says. The inputs come back as found. The output
  tile comes back holding the product plus the bias (first step of a contraction) or the previous contents plus the
  product (later steps); the obligation only asks for these contents on the part of the tile inside the array, which
  is where the two hypotheses `hfirst` / `hlater` say they are `acc c t`. A second form asks nothing of the output
  tile at all.
-/
import proofs.«410740_j18021682774288_3_alg».proof.Proof.BodyI
import proofs.«410740_j18021682774288_3_alg».proof.Proof.DataI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (acc : Dev nD → Fin cfg0.N → S1024x1408.Idx → Elt F .f32)

/-- The x tile at point `t`, at its literal type. -/
abbrev xtile (c : Dev nD) (t : Fin cfg0.N) : Vec F S1024x1024 .bf16 := iblk m c 0 t

/-- The point before `t`. -/
abbrev prev (t : Fin cfg0.N) : Fin cfg0.N := ⟨t.val - 1, Nat.lt_of_le_of_lt (Nat.sub_le _ _) t.isLt⟩

set_option maxHeartbeats 1000000 in
theorem obligation (c : Dev nD)
    (hfirst : ∀ t : Fin cfg0.N, t.val % 4 = 0 → ∀ (X1 : S1408x1024.Idx → Elt F .bf16) (X2 : S1x1408.Idx → Elt F .f32),
        win0_1.cut (grid0.coords t) X1 = iblk m c 1 t → win0_2.cut (grid0.coords t) X2 = iblk m c 2 t →
        win0_3.cut (grid0.coords t) (k0_pay2 (xtile m c t) X1 X2) = win0_3.cut (grid0.coords t) (acc c t))
    (hlater : ∀ t : Fin cfg0.N, ¬ t.val % 4 = 0 → ∀ (X1 : S1408x1024.Idx → Elt F .bf16) (X3 : S1024x1408.Idx → Elt F .f32),
        win0_1.cut (grid0.coords t) X1 = iblk m c 1 t →
        win0_3.cut (grid0.coords (prev t)) X3 = win0_3.cut (grid0.coords (prev t)) (acc c (prev t)) →
        win0_3.cut (grid0.coords t) (k0_pay3 (xtile m c t) X1 X3) = win0_3.cut (grid0.coords t) (acc c t)) :
    BodyObligationLoose (dats m acc 0 c) (defs₀ (F := F)) Variants.none () Set.univ := fun t => by
  rw [bigSep_W0, bigSep_W0]
  simp only [live3 (grid0.coords t)]
  rw [show (dats m acc 0 c).Φ t.succ = (dats m acc 0 c).Φ t.castSucc from rfl,
    show (dats m acc 0 c).owesAt () t.succ = (dats m acc 0 c).owesAt () t.castSucc from rfl]
  change _ ⊢ wp frame (wpE (defs₀ (F := F)) Variants.none c none) Set.univ (bodyAt0 t) _
  unfold bodyAt0
  iintro ⟨HΦ, Ho, ⟨%d0, H0⟩, ⟨%d1, H1⟩, ⟨%d2, H2⟩, ⟨%d3, H3⟩⟩
  rw [before0 m acc c t d0, before1 m acc c t d1, before2 m acc c t d2]
  rw [show idle0 3 (grid0.coords t) = false from live3 (grid0.coords t)]
  dsimp only
  by_cases h0 : t.val % 4 = 0
  · rw [before3_first m acc c t h0 d3]
    have key := sound_first (F := F) c (grid0.coords t) ((hcond1 t).mpr h0) (fun h => (hcond2 t).mp h h0)
      (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (xtile m c t) (win0_1.fill (grid0.coords t) d1 (iblk m c 1 t)) (win0_2.fill (grid0.coords t) d2 (iblk m c 2 t)) d3 Set.univ
    iapply (key _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]
    · iexists d1
      rw [show (win0 1).cut (grid0.coords t) ((dats m acc 0 c).after 1 t) = iblk m c 1 t from win0_1.cut_fill _ _ _]
      iexact H1
    isplitl [H2]
    · iexists d2
      rw [show (win0 2).cut (grid0.coords t) ((dats m acc 0 c).after 2 t) = iblk m c 2 t from win0_2.cut_fill _ _ _]
      iexact H2
    · iexists (k0_pay2 (xtile m c t) (win0_1.fill (grid0.coords t) d1 (iblk m c 1 t)) (win0_2.fill (grid0.coords t) d2 (iblk m c 2 t)))
      rw [show (dats m acc 0 c).after 3 t = acc c t from rfl,
        ← hfirst t h0 _ _ (win0_1.cut_fill _ _ _) (win0_2.cut_fill _ _ _), Window.fill_cut]
      iexact H3
  · rw [before3_later m acc c t h0 d3]
    have key := sound_later (F := F) c (grid0.coords t) (fun h => h0 ((hcond1 t).mp h)) ((hcond2 t).mpr h0)
      (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (xtile m c t) (win0_1.fill (grid0.coords t) d1 (iblk m c 1 t)) (win0_2.fill (grid0.coords t) d2 (iblk m c 2 t))
      (win0_3.fill (grid0.coords (prev t)) d3 (win0_3.cut (grid0.coords (prev t)) (acc c (prev t)))) Set.univ
    iapply (key _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]
    · iexists d1
      rw [show (win0 1).cut (grid0.coords t) ((dats m acc 0 c).after 1 t) = iblk m c 1 t from win0_1.cut_fill _ _ _]
      iexact H1
    isplitl [H2]
    · iexists d2
      rw [show (win0 2).cut (grid0.coords t) ((dats m acc 0 c).after 2 t) = iblk m c 2 t from win0_2.cut_fill _ _ _]
      iexact H2
    · iexists (k0_pay3 (xtile m c t) (win0_1.fill (grid0.coords t) d1 (iblk m c 1 t))
        (win0_3.fill (grid0.coords (prev t)) d3 (win0_3.cut (grid0.coords (prev t)) (acc c (prev t)))))
      rw [show (dats m acc 0 c).after 3 t = acc c t from rfl,
        ← hlater t h0 _ _ (win0_1.cut_fill _ _ _) (win0_3.cut_fill _ _ _), Window.fill_cut]
      iexact H3

end Cert.KernelIdeal.Hand

end
-- ==== Proof.Geom.lean ====
/-
  The geometry of the matmul's four windows on the grid (8, 8, 4).

  The grid has 256 points; point `t` has coordinates (t / 32, t / 4 % 8, t % 4) = (row tile, column tile, reduction
  tile). Window 0 (the left operand, [8192, 4096]) has blocks (1024, 1024) at (row tile, reduction tile), all inside
  the array. Window 1 (the right operand, [11008, 4096]) has blocks (1408, 1024) at (column tile, reduction tile);
  window 2 (the bias, [1, 11008]) has blocks (1, 1408) at (0, column tile); window 3 (the result, [8192, 11008]) has
  blocks (1024, 1408) at (row tile, column tile). Since 11008 = 7 * 1408 + 1152, the blocks of windows 1, 2 and 3 at
  column tile 7 overhang the array by 256 and are cut to their first 1152 coordinates on that axis.

  Stated here, at a symbolic point: the coordinates of a point; which elements of a block a cut transfer moves; the
  bounds on a cut block's index; a block read off any contents of its array, element by element (the element at
  block index `j` is the array's at tile * block size + `j`, axis by axis); and that every element of the result
  array lies in the block of a point at which the result is written back (the last point, t % 4 = 3, of the
  reduction at its row tile and column tile). The facts about the printed index maps and cuts are decided once over
  the 256 points and then used at the symbolic point.
-/
import proofs.«410740_j18021682774288_3_alg».proof.Proof.Gen.KernelIdeal.Frame
import Idealize.ShloMosaic.Lib.Pipeline.Value
import Idealize.ShloMosaic.Lib.ValueIdx

noncomputable section

namespace Cert.KernelIdeal.Geom

open Cert.KernelIdeal Cert.KernelIdeal.Gen
open Idealize.ShloMosaic Idealize.ShloMosaic.ValueIdx Idealize.ShloMosaic.TcCoe Idealize.SL.Sem
open Idealize.ShloMosaic.Pipeline (Dat Cfg Window)

variable {F : FTy → Type} [FloatOps F]

/-! ## The coordinates of a point -/

/-- Consecutive points sharing a row tile: 8 * 4. -/
theorem stride0 : grid0.stride 0 = 32 := by decide
/-- Consecutive points sharing a column tile: 4. -/
theorem stride1 : grid0.stride 1 = 4 := by decide
/-- The reduction tile changes at every point. -/
theorem stride2 : grid0.stride 2 = 1 := by decide

/-- The row tile of point `t`. -/
theorem coords0 (t : Fin cfg0.N) : (grid0.coords t 0).val = t.val / 32 := by
  have ht : t.val < 256 := t.isLt
  show t.val / grid0.stride 0 % 8 = t.val / 32
  rw [stride0]; omega
/-- The column tile of point `t`. -/
theorem coords1 (t : Fin cfg0.N) : (grid0.coords t 1).val = t.val / 4 % 8 := by
  show t.val / grid0.stride 1 % 8 = t.val / 4 % 8
  rw [stride1]
/-- The reduction tile of point `t`. -/
theorem coords2 (t : Fin cfg0.N) : (grid0.coords t 2).val = t.val % 4 := by
  show t.val / grid0.stride 2 % 4 = t.val % 4
  rw [stride2, Nat.div_one]

/-! ## The block indices and the cut sizes, decided over the grid -/

/-- Window 0's block index at point `t`: (row tile, reduction tile). -/
theorem idx0 : ∀ t : Fin cfg0.N, win0_0.index t 0 = t.val / 32 ∧ win0_0.index t 1 = t.val % 4 :=
  (by decide +kernel : ∀ t : Fin grid0.N, win0_0.index t 0 = t.val / 32 ∧ win0_0.index t 1 = t.val % 4)
/-- Window 1's block index at point `t`: (column tile, reduction tile). -/
theorem idx1 : ∀ t : Fin cfg0.N, win0_1.index t 0 = t.val / 4 % 8 ∧ win0_1.index t 1 = t.val % 4 :=
  (by decide +kernel : ∀ t : Fin grid0.N, win0_1.index t 0 = t.val / 4 % 8 ∧ win0_1.index t 1 = t.val % 4)
/-- Window 2's block index at point `t`: (0, column tile). -/
theorem idx2 : ∀ t : Fin cfg0.N, win0_2.index t 0 = 0 ∧ win0_2.index t 1 = t.val / 4 % 8 :=
  (by decide +kernel : ∀ t : Fin grid0.N, win0_2.index t 0 = 0 ∧ win0_2.index t 1 = t.val / 4 % 8)
/-- Window 3's block index at point `t`: (row tile, column tile). -/
theorem idx3 : ∀ t : Fin cfg0.N, win0_3.index t 0 = t.val / 32 ∧ win0_3.index t 1 = t.val / 4 % 8 :=
  (by decide +kernel : ∀ t : Fin grid0.N, win0_3.index t 0 = t.val / 32 ∧ win0_3.index t 1 = t.val / 4 % 8)

/-- Window 1's transfer at point `t` moves 1408 rows of the block, 1152 at column tile 7, and all 1024 columns. -/
theorem xs1 : ∀ t : Fin cfg0.N, win0_1.xsize (grid0.coords t) 0 = (if t.val / 4 % 8 = 7 then 1152 else 1408) ∧ win0_1.xsize (grid0.coords t) 1 = 1024 :=
  (by decide +kernel : ∀ t : Fin grid0.N, win0_1.xsize (grid0.coords t) 0 = (if t.val / 4 % 8 = 7 then 1152 else 1408) ∧ win0_1.xsize (grid0.coords t) 1 = 1024)
/-- Window 2's transfer at point `t` moves the one row and 1408 columns of the block, 1152 at column tile 7. -/
theorem xs2 : ∀ t : Fin cfg0.N, win0_2.xsize (grid0.coords t) 0 = 1 ∧ win0_2.xsize (grid0.coords t) 1 = (if t.val / 4 % 8 = 7 then 1152 else 1408) :=
  (by decide +kernel : ∀ t : Fin grid0.N, win0_2.xsize (grid0.coords t) 0 = 1 ∧ win0_2.xsize (grid0.coords t) 1 = (if t.val / 4 % 8 = 7 then 1152 else 1408))
/-- Window 3's transfer at point `t` moves all 1024 rows and 1408 columns of the block, 1152 at column tile 7. -/
theorem xs3 : ∀ t : Fin cfg0.N, win0_3.xsize (grid0.coords t) 0 = 1024 ∧ win0_3.xsize (grid0.coords t) 1 = (if t.val / 4 % 8 = 7 then 1152 else 1408) :=
  (by decide +kernel : ∀ t : Fin grid0.N, win0_3.xsize (grid0.coords t) 0 = 1024 ∧ win0_3.xsize (grid0.coords t) 1 = (if t.val / 4 % 8 = 7 then 1152 else 1408))

/-! ## Which elements of a block a cut transfer moves: those inside the array -/

/-- Window 1: the rows of the block that are rows of the array. -/
theorem moved1_iff (t : Fin cfg0.N) (j : S1408x1024.Idx) :
    win0_1.moved (grid0.coords t) j = true ↔ (t.val / 4 % 8) * 1408 + (j 0).val < 11008 := by
  have hj0 : (j 0).val < 1408 := (j 0).isLt
  have hj1 : (j 1).val < 1024 := (j 1).isLt
  obtain ⟨e0, e1⟩ := xs1 t
  rw [Window.moved_iff]
  constructor
  · intro h
    have h0 : (j 0).val < win0_1.xsize (grid0.coords t) 0 := h 0
    rw [e0] at h0
    split at h0 <;> omega
  · intro h a
    match a with
    | ⟨0, _⟩ =>
      show (j 0).val < win0_1.xsize (grid0.coords t) 0
      rw [e0]; split <;> omega
    | ⟨1, _⟩ =>
      show (j 1).val < win0_1.xsize (grid0.coords t) 1
      rw [e1]; exact hj1

/-- Window 2: the columns of the block that are columns of the array. -/
theorem moved2_iff (t : Fin cfg0.N) (j : S1x1408.Idx) :
    win0_2.moved (grid0.coords t) j = true ↔ (t.val / 4 % 8) * 1408 + (j 1).val < 11008 := by
  have hj0 : (j 0).val < 1 := (j 0).isLt
  have hj1 : (j 1).val < 1408 := (j 1).isLt
  obtain ⟨e0, e1⟩ := xs2 t
  rw [Window.moved_iff]
  constructor
  · intro h
    have h1 : (j 1).val < win0_2.xsize (grid0.coords t) 1 := h 1
    rw [e1] at h1
    split at h1 <;> omega
  · intro h a
    match a with
    | ⟨0, _⟩ =>
      show (j 0).val < win0_2.xsize (grid0.coords t) 0
      rw [e0]; exact hj0
    | ⟨1, _⟩ =>
      show (j 1).val < win0_2.xsize (grid0.coords t) 1
      rw [e1]; split <;> omega

/-- Window 3: the columns of the block that are columns of the array. -/
theorem moved3_iff (t : Fin cfg0.N) (j : S1024x1408.Idx) :
    win0_3.moved (grid0.coords t) j = true ↔ (t.val / 4 % 8) * 1408 + (j 1).val < 11008 := by
  have hj0 : (j 0).val < 1024 := (j 0).isLt
  have hj1 : (j 1).val < 1408 := (j 1).isLt
  obtain ⟨e0, e1⟩ := xs3 t
  rw [Window.moved_iff]
  constructor
  · intro h
    have h1 : (j 1).val < win0_3.xsize (grid0.coords t) 1 := h 1
    rw [e1] at h1
    split at h1 <;> omega
  · intro h a
    match a with
    | ⟨0, _⟩ =>
      show (j 0).val < win0_3.xsize (grid0.coords t) 0
      rw [e0]; exact hj0
    | ⟨1, _⟩ =>
      show (j 1).val < win0_3.xsize (grid0.coords t) 1
      rw [e1]; split <;> omega

/-! ## The coordinates of a cut block's index -/

/-- Window 0 is not cut: an index of its block at point `t` is an index of the (1024, 1024) block, inside the array. -/
theorem xbound0 (t : Fin cfg0.N) (j : (win0_0.xblock (grid0.coords t)).Idx) :
    t.val / 32 * 1024 + (j 0).val < 8192 ∧ t.val % 4 * 1024 + (j 1).val < 4096 ∧ (j 0).val < 1024 ∧ (j 1).val < 1024 := by
  have ht : t.val < 256 := t.isLt
  have h0 : (j 0).val < 1024 := (j 0).isLt
  have h1 : (j 1).val < 1024 := (j 1).isLt
  omega

/-- An index of window 1's cut block at point `t`: its row is a row of the array. -/
theorem xbound1 (t : Fin cfg0.N) (j : (win0_1.xblock (grid0.coords t)).Idx) :
    (t.val / 4 % 8) * 1408 + (j 0).val < 11008 ∧ (j 0).val < 1408 ∧ (j 1).val < 1024 := by
  obtain ⟨e0, e1⟩ := xs1 t
  have h0 : (j 0).val < win0_1.xsize (grid0.coords t) 0 := (j 0).isLt
  have h1 : (j 1).val < win0_1.xsize (grid0.coords t) 1 := (j 1).isLt
  rw [e0] at h0; rw [e1] at h1
  split at h0 <;> omega

/-- The column of window 1's block index in the array is inside it (the axis is not cut). -/
theorem xcol1 (t : Fin cfg0.N) (j : (win0_1.xblock (grid0.coords t)).Idx) : t.val % 4 * 1024 + (j 1).val < 4096 := by
  have h1 := (xbound1 t j).2.2
  omega

/-- An index of window 2's cut block at point `t`: its column is a column of the array. -/
theorem xbound2 (t : Fin cfg0.N) (j : (win0_2.xblock (grid0.coords t)).Idx) :
    (t.val / 4 % 8) * 1408 + (j 1).val < 11008 ∧ (j 0).val < 1 ∧ (j 1).val < 1408 := by
  obtain ⟨e0, e1⟩ := xs2 t
  have h0 : (j 0).val < win0_2.xsize (grid0.coords t) 0 := (j 0).isLt
  have h1 : (j 1).val < win0_2.xsize (grid0.coords t) 1 := (j 1).isLt
  rw [e0] at h0; rw [e1] at h1
  split at h1 <;> omega

/-- An index of window 3's cut block at point `t`: its column is a column of the array. -/
theorem xbound3 (t : Fin cfg0.N) (j : (win0_3.xblock (grid0.coords t)).Idx) :
    (t.val / 4 % 8) * 1408 + (j 1).val < 11008 ∧ (j 0).val < 1024 ∧ (j 1).val < 1408 := by
  obtain ⟨e0, e1⟩ := xs3 t
  have h0 : (j 0).val < win0_3.xsize (grid0.coords t) 0 := (j 0).isLt
  have h1 : (j 1).val < win0_3.xsize (grid0.coords t) 1 := (j 1).isLt
  rw [e0] at h0; rw [e1] at h1
  split at h1 <;> omega

/-- The row of window 3's block index in the array is inside it (the axis is not cut). -/
theorem xrow3 (t : Fin cfg0.N) (j : (win0_3.xblock (grid0.coords t)).Idx) : t.val / 32 * 1024 + (j 0).val < 8192 := by
  have ht : t.val < 256 := t.isLt
  have h0 := (xbound3 t j).2.1
  omega

/-! ## A window's block read off any contents of its array -/

/-- Window 0's block at point `t` read off contents `A` of its array: `A` at row (row tile * 1024 + j 0), column
    (reduction tile * 1024 + j 1). -/
theorem read_blk0 (c : Dev nD) (A : Buf (Elt F) ((cfg0.win 0).arr.view.loc (c : Thread nD τ))) (t : Fin cfg0.N)
    (j : (win0_0.xblock (grid0.coords t)).Idx)
    (h0 : t.val / 32 * 1024 + (j 0).val < 8192) (h1 : t.val % 4 * 1024 + (j 1).val < 4096) :
    ((cfg0.win 0).blk t).view.read (Elt F) A j
      = (A : S8192x4096.Idx → Elt F .bf16) (ix2 ⟨t.val / 32 * 1024 + (j 0).val, h0⟩ ⟨t.val % 4 * 1024 + (j 1).val, h1⟩) := by
  obtain ⟨e0, e1⟩ := idx0 t
  show (A : S8192x4096.Idx → Elt F .bf16) (((cfg0.win 0).blk t).view.emb j) = _
  congr 1
  funext a; apply Fin.ext
  match a with
  | ⟨0, _⟩ => show win0_0.index t 0 * 1024 + 1 * (j 0).val = t.val / 32 * 1024 + (j 0).val; rw [e0]; omega
  | ⟨1, _⟩ => show win0_0.index t 1 * 1024 + 1 * (j 1).val = t.val % 4 * 1024 + (j 1).val; rw [e1]; omega

/-- Window 1's block at point `t` read off contents `A` of its array: `A` at row (column tile * 1408 + j 0), column
    (reduction tile * 1024 + j 1). -/
theorem read_blk1 (c : Dev nD) (A : Buf (Elt F) ((cfg0.win 1).arr.view.loc (c : Thread nD τ))) (t : Fin cfg0.N)
    (j : (win0_1.xblock (grid0.coords t)).Idx)
    (h0 : (t.val / 4 % 8) * 1408 + (j 0).val < 11008) (h1 : t.val % 4 * 1024 + (j 1).val < 4096) :
    ((cfg0.win 1).blk t).view.read (Elt F) A j
      = (A : S11008x4096.Idx → Elt F .bf16) (ix2 ⟨(t.val / 4 % 8) * 1408 + (j 0).val, h0⟩ ⟨t.val % 4 * 1024 + (j 1).val, h1⟩) := by
  obtain ⟨e0, e1⟩ := idx1 t
  show (A : S11008x4096.Idx → Elt F .bf16) (((cfg0.win 1).blk t).view.emb j) = _
  congr 1
  funext a; apply Fin.ext
  match a with
  | ⟨0, _⟩ => show win0_1.index t 0 * 1408 + 1 * (j 0).val = (t.val / 4 % 8) * 1408 + (j 0).val; rw [e0]; omega
  | ⟨1, _⟩ => show win0_1.index t 1 * 1024 + 1 * (j 1).val = t.val % 4 * 1024 + (j 1).val; rw [e1]; omega

/-- Window 2's block at point `t` read off contents `A` of its array: `A` at row 0, column (column tile * 1408 + j 1). -/
theorem read_blk2 (c : Dev nD) (A : Buf (Elt F) ((cfg0.win 2).arr.view.loc (c : Thread nD τ))) (t : Fin cfg0.N)
    (j : (win0_2.xblock (grid0.coords t)).Idx)
    (h1 : (t.val / 4 % 8) * 1408 + (j 1).val < 11008) :
    ((cfg0.win 2).blk t).view.read (Elt F) A j
      = (A : S1x11008.Idx → Elt F .f32) (ix2 (0 : Fin 1) ⟨(t.val / 4 % 8) * 1408 + (j 1).val, h1⟩) := by
  obtain ⟨e0, e1⟩ := idx2 t
  have hj0 : (j 0).val < 1 := (xbound2 t j).2.1
  show (A : S1x11008.Idx → Elt F .f32) (((cfg0.win 2).blk t).view.emb j) = _
  congr 1
  funext a; apply Fin.ext
  match a with
  | ⟨0, _⟩ => show win0_2.index t 0 * 1 + 1 * (j 0).val = 0; rw [e0]; omega
  | ⟨1, _⟩ => show win0_2.index t 1 * 1408 + 1 * (j 1).val = (t.val / 4 % 8) * 1408 + (j 1).val; rw [e1]; omega

/-- Window 3's block at point `t` read off contents `A` of its array: `A` at row (row tile * 1024 + j 0), column
    (column tile * 1408 + j 1). -/
theorem read_blk3 (c : Dev nD) (A : Buf (Elt F) ((cfg0.win 3).arr.view.loc (c : Thread nD τ))) (t : Fin cfg0.N)
    (j : (win0_3.xblock (grid0.coords t)).Idx)
    (h0 : t.val / 32 * 1024 + (j 0).val < 8192) (h1 : (t.val / 4 % 8) * 1408 + (j 1).val < 11008) :
    ((cfg0.win 3).blk t).view.read (Elt F) A j
      = (A : S8192x11008.Idx → Elt F .f32) (ix2 ⟨t.val / 32 * 1024 + (j 0).val, h0⟩ ⟨(t.val / 4 % 8) * 1408 + (j 1).val, h1⟩) := by
  obtain ⟨e0, e1⟩ := idx3 t
  show (A : S8192x11008.Idx → Elt F .f32) (((cfg0.win 3).blk t).view.emb j) = _
  congr 1
  funext a; apply Fin.ext
  match a with
  | ⟨0, _⟩ => show win0_3.index t 0 * 1024 + 1 * (j 0).val = t.val / 32 * 1024 + (j 0).val; rw [e0]; omega
  | ⟨1, _⟩ => show win0_3.index t 1 * 1408 + 1 * (j 1).val = (t.val / 4 % 8) * 1408 + (j 1).val; rw [e1]; omega

/-! ## The input windows' blocks of the arrays as the pallas_call finds them -/

section
variable (m : (ℓ : Loc nD τ sig) → Buf (Elt F) ℓ)

/-- Window 0's block at point `t` of its array as the pallas_call finds it. -/
theorem iblk0_apply (c : Dev nD) (t : Fin cfg0.N) (j : (win0_0.xblock (grid0.coords t)).Idx)
    (h0 : t.val / 32 * 1024 + (j 0).val < 8192) (h1 : t.val % 4 * 1024 + (j 1).val < 4096) :
    iblk m c 0 t j = (V m c (Pipeline.arrRef spec0 0) : S8192x4096.Idx → Elt F .bf16)
      (ix2 ⟨t.val / 32 * 1024 + (j 0).val, h0⟩ ⟨t.val % 4 * 1024 + (j 1).val, h1⟩) :=
  read_blk0 c (V m c (Pipeline.arrRef spec0 0)) t j h0 h1

/-- Window 1's block at point `t` of its array as the pallas_call finds it. -/
theorem iblk1_apply (c : Dev nD) (t : Fin cfg0.N) (j : (win0_1.xblock (grid0.coords t)).Idx)
    (h0 : (t.val / 4 % 8) * 1408 + (j 0).val < 11008) (h1 : t.val % 4 * 1024 + (j 1).val < 4096) :
    iblk m c 1 t j = (V m c (Pipeline.arrRef spec0 1) : S11008x4096.Idx → Elt F .bf16)
      (ix2 ⟨(t.val / 4 % 8) * 1408 + (j 0).val, h0⟩ ⟨t.val % 4 * 1024 + (j 1).val, h1⟩) :=
  read_blk1 c (V m c (Pipeline.arrRef spec0 1)) t j h0 h1

/-- Window 2's block at point `t` of its array as the pallas_call finds it. -/
theorem iblk2_apply (c : Dev nD) (t : Fin cfg0.N) (j : (win0_2.xblock (grid0.coords t)).Idx)
    (h1 : (t.val / 4 % 8) * 1408 + (j 1).val < 11008) :
    iblk m c 2 t j = (V m c (Pipeline.arrRef spec0 2) : S1x11008.Idx → Elt F .f32)
      (ix2 (0 : Fin 1) ⟨(t.val / 4 % 8) * 1408 + (j 1).val, h1⟩) :=
  read_blk2 c (V m c (Pipeline.arrRef spec0 2)) t j h1

/-- Window 3's block at point `t` of its array as the pallas_call finds it. -/
theorem iblk3_apply (c : Dev nD) (t : Fin cfg0.N) (j : (win0_3.xblock (grid0.coords t)).Idx)
    (h0 : t.val / 32 * 1024 + (j 0).val < 8192) (h1 : (t.val / 4 % 8) * 1408 + (j 1).val < 11008) :
    iblk m c 3 t j = (V m c (Pipeline.arrRef spec0 3) : S8192x11008.Idx → Elt F .f32)
      (ix2 ⟨t.val / 32 * 1024 + (j 0).val, h0⟩ ⟨(t.val / 4 % 8) * 1408 + (j 1).val, h1⟩) :=
  read_blk3 c (V m c (Pipeline.arrRef spec0 3)) t j h0 h1

end

/-! ## Every element of the output array lies in the block of a point that writes back -/

/-- An index of the output array is in point `t`'s block iff, on each axis, its coordinate is among the block's
    coordinates inside the array. -/
theorem mem_blk3 (t : Fin cfg0.N) (i : S8192x11008.Idx) :
    i ∈ ((cfg0.win 3).blk t).view.set ↔ ∀ a : Fin 2, win0_3.index t a * S1024x1408.size a ≤ (i a).val
      ∧ (i a).val < win0_3.index t a * S1024x1408.size a + win0_3.xsize (grid0.coords t) a := by
  show i ∈ ((View.whole main_v21).slice (win0_3.rect t)).set ↔ _
  rw [View.set_slice_whole, Rect.mem_set_unit]
  exact Iff.rfl

/-- Row `r`, column `o` of the output is in the block of the last point of the reduction at row tile `r / 1024` and
    column tile `o / 1408`, which writes its block back. -/
theorem cover3_idx (i : S8192x11008.Idx) :
    ∃ t : Fin cfg0.N, (cfg0.win 3).flush t = true ∧ i ∈ ((cfg0.win 3).blk t).view.set := by
  have hr : (i 0).val < 8192 := (i 0).isLt
  have ho : (i 1).val < 11008 := (i 1).isLt
  have hlt : (i 0).val / 1024 * 32 + (i 1).val / 1408 * 4 + 3 < cfg0.N := by
    show _ < 256
    omega
  obtain ⟨t, htv⟩ : ∃ t : Fin cfg0.N, t.val = (i 0).val / 1024 * 32 + (i 1).val / 1408 * 4 + 3 := ⟨⟨_, hlt⟩, rfl⟩
  obtain ⟨e0, e1⟩ := idx3 t
  obtain ⟨x0, x1⟩ := xs3 t
  refine ⟨t, (flush0_3 t).mpr (by omega), ?_⟩
  rw [mem_blk3]
  intro a
  match a with
  | ⟨0, _⟩ =>
    show win0_3.index t 0 * 1024 ≤ (i 0).val ∧ (i 0).val < win0_3.index t 0 * 1024 + win0_3.xsize (grid0.coords t) 0
    rw [e0, x0]; omega
  | ⟨1, _⟩ =>
    show win0_3.index t 1 * 1408 ≤ (i 1).val ∧ (i 1).val < win0_3.index t 1 * 1408 + win0_3.xsize (grid0.coords t) 1
    rw [e1, x1]; split <;> omega

theorem cover3 (c : Dev nD) : ∀ i : ((cfg0.win 3).arr.view.loc (c : Thread nD τ)).2.ty.Idx,
    ∃ t : Fin cfg0.N, (cfg0.win 3).flush t = true ∧ i ∈ ((cfg0.win 3).blk t).view.set :=
  cover3_idx

end Cert.KernelIdeal.Geom

end
-- ==== Proof.PayIdx.lean ====
/-
  The kernel body's three payloads, read at one index of the output block, at the ideal instance
  (a float is an extended real; a matmul into the zero accumulator is the plain sum of products).

  The block product contracts axis 1 of both operands: out[r, o] = ∑ k, lhs[r, k] * rhs[o, k].
  The first-step payload adds the bias row broadcast over the rows; the later-step payload adds the
  block product to what the output block already holds.
-/
import proofs.«410740_j18021682774288_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayIdx

open Cert.KernelIdeal Cert.KernelIdeal.Gen Idealize.ShloMosaic Idealize.ShloMosaic.ValueIdx Idealize.ShloMosaic.TcCoe Idealize.SL.Sem

/-! ## The operand indices of the block product

At output index `i` and contraction position `q` the left operand is read at `(i 0, q)` and the
right operand at `(i 1, q)`: one lemma per operand axis. -/

/-- Left operand, axis 0 (its row axis): the output's row. -/
theorem lhs_pay1_0 (i : S1024x1408.Idx) (q : dot_S1024x1024_S1408x1024_S1024x1408_1_1_0_0_n_n.contr.Idx) :
    (dot_S1024x1024_S1408x1024_S1024x1408_1_1_0_0_n_n.lhsIdx i q 0).val = (i 0).val := by
  unfold DotDims.lhsIdx
  rw [dif_neg (show ¬(0 : Fin S1024x1024.rank) ∈ dot_S1024x1024_S1408x1024_S1024x1408_1_1_0_0_n_n.lhsBatch by decide), dif_pos (show (0 : Fin S1024x1024.rank) ∈ dot_S1024x1024_S1408x1024_S1024x1408_1_1_0_0_n_n.lhsNonContracting by decide)]
  rfl
/-- Left operand, axis 1 (contracted): the contraction position. -/
theorem lhs_pay1_1 (i : S1024x1408.Idx) (q : dot_S1024x1024_S1408x1024_S1024x1408_1_1_0_0_n_n.contr.Idx) :
    (dot_S1024x1024_S1408x1024_S1024x1408_1_1_0_0_n_n.lhsIdx i q 1).val = (q ⟨0, by decide⟩).val :=
  dot_S1024x1024_S1408x1024_S1024x1408_1_1_0_0_n_n.lhsIdx_val_of_single rfl i q
/-- Right operand, axis 0 (its row axis): the output's column. -/
theorem rhs_pay1_0 (i : S1024x1408.Idx) (q : dot_S1024x1024_S1408x1024_S1024x1408_1_1_0_0_n_n.contr.Idx) :
    (dot_S1024x1024_S1408x1024_S1024x1408_1_1_0_0_n_n.rhsIdx i q 0).val = (i 1).val := by
  unfold DotDims.rhsIdx
  rw [dif_neg (show ¬(0 : Fin S1408x1024.rank) ∈ dot_S1024x1024_S1408x1024_S1024x1408_1_1_0_0_n_n.rhsBatch by decide), dif_pos (show (0 : Fin S1408x1024.rank) ∈ dot_S1024x1024_S1408x1024_S1024x1408_1_1_0_0_n_n.rhsNonContracting by decide)]
  rfl
/-- Right operand, axis 1 (contracted): the contraction position. -/
theorem rhs_pay1_1 (i : S1024x1408.Idx) (q : dot_S1024x1024_S1408x1024_S1024x1408_1_1_0_0_n_n.contr.Idx) :
    (dot_S1024x1024_S1408x1024_S1024x1408_1_1_0_0_n_n.rhsIdx i q 1).val = (q ⟨0, by decide⟩).val :=
  dot_S1024x1024_S1408x1024_S1024x1408_1_1_0_0_n_n.rhsIdx_val_of_single rfl i q

/-! ## The payloads at an index -/

/-- The block product at `(r, o)`: the sum over the contracted axis of the products of row `r` of the
    left block and row `o` of the right block. -/
theorem pay1_apply (x0 : Vec Ideal S1024x1024 .bf16) (x1 : Vec Ideal S1408x1024 .bf16) (r : Fin 1024) (o : Fin 1408) :
    k0_pay1 (F := Ideal) x0 x1 (ix2 r o) = ∑ kk : Fin 1024, x0 (ix2 r kk) * x1 (ix2 o kk) := by
  unfold k0_pay1
  simp only [matmul]
  rw [shapeCast_self, shapeCast_self, Ideal.matmul_constant_zero_apply,
    ← Equiv.sum_comp (contrEquiv1 dot_S1024x1024_S1408x1024_S1024x1408_1_1_0_0_n_n 1024 rfl rfl).symm]
  refine Finset.sum_congr rfl fun k _ => ?_
  have hk := contrEquiv1_symm_val dot_S1024x1024_S1408x1024_S1024x1408_1_1_0_0_n_n 1024 rfl rfl k
  have el : dot_S1024x1024_S1408x1024_S1024x1408_1_1_0_0_n_n.lhsIdx (ix2 r o) ((contrEquiv1 dot_S1024x1024_S1408x1024_S1024x1408_1_1_0_0_n_n 1024 rfl rfl).symm k) = ix2 r k := funext fun a => Fin.ext (by
    match a with
    | ⟨0, _⟩ => exact lhs_pay1_0 _ _
    | ⟨1, _⟩ => exact (lhs_pay1_1 _ _).trans hk)
  have er : dot_S1024x1024_S1408x1024_S1024x1408_1_1_0_0_n_n.rhsIdx (ix2 r o) ((contrEquiv1 dot_S1024x1024_S1408x1024_S1024x1408_1_1_0_0_n_n 1024 rfl rfl).symm k) = ix2 o k := funext fun a => Fin.ext (by
    match a with
    | ⟨0, _⟩ => exact rhs_pay1_0 _ _
    | ⟨1, _⟩ => exact (rhs_pay1_1 _ _).trans hk)
  rw [el, er]

/-- The first-step payload at `(r, o)`: the block product plus the bias row at `o`. -/
theorem pay2_apply (x0 : Vec Ideal S1024x1024 .bf16) (x1 : Vec Ideal S1408x1024 .bf16) (x2 : Vec Ideal S1x1408 .f32) (r : Fin 1024) (o : Fin 1408) :
    k0_pay2 (F := Ideal) x0 x1 x2 (ix2 r o) = k0_pay1 (F := Ideal) x0 x1 (ix2 r o) + x2 (ix2 (0 : Fin 1) o) := by
  unfold k0_pay2
  rw [shapeCast_self, addf_apply, broadcastTo_1b_ab_apply]

/-- The later-step payload at `(r, o)`: what the output block holds there plus the block product. -/
theorem pay3_apply (x0 : Vec Ideal S1024x1024 .bf16) (x1 : Vec Ideal S1408x1024 .bf16) (x3 : Vec Ideal S1024x1408 .f32) (r : Fin 1024) (o : Fin 1408) :
    k0_pay3 (F := Ideal) x0 x1 x3 (ix2 r o) = x3 (ix2 r o) + k0_pay1 (F := Ideal) x0 x1 (ix2 r o) := by
  unfold k0_pay3
  rw [shapeCast_self, addf_apply]

end Cert.KernelIdeal.PayIdx

end
-- ==== Proof.Spec.lean ====
/-
  The specification both programs meet: out[r, o] = (Σ_q X[r, q] · W[o, q]) + B[0, o] over the extended reals, for
  X : [8192, 4096], W : [11008, 4096], B : [1, 11008]; and the same sum cut into four blocks of 1024 terms, taken
  one block at a time: after n blocks the partial result is the first n block sums plus B. Addition of extended
  reals is commutative and associative, so the order in which the blocks and B are added does not matter.
-/
import Idealize.ShloMosaic.PureOps.Ideal
import Idealize.ShloMosaic.Lib.ValueIdx
import Mathlib.Algebra.BigOperators.Fin
import Mathlib.Logic.Equiv.Fin.Basic

noncomputable section

open scoped BigOperators

namespace Cert.Spec

open Idealize.ShloMosaic Idealize.ShloMosaic.ValueIdx

abbrev SX : Shape := ⟨2, ![8192, 4096]⟩
abbrev SW : Shape := ⟨2, ![11008, 4096]⟩
abbrev SB : Shape := ⟨2, ![1, 11008]⟩
abbrev SO : Shape := ⟨2, ![8192, 11008]⟩

/-- The column of term `kk` of block `kb` of the contraction: `kb * 1024 + kk` (reduced mod 4096 so that it is a
    column for every `kb`; for `kb < 4` nothing is reduced). -/
def kcol (kb : ℕ) (kk : Fin 1024) : Fin 4096 := ⟨(kb * 1024 + kk.val) % 4096, Nat.mod_lt _ (by norm_num)⟩

theorem kcol_val {kb : ℕ} (h : kb < 4) (kk : Fin 1024) : (kcol kb kk).val = kb * 1024 + kk.val := by
  have := kk.isLt
  show (kb * 1024 + kk.val) % 4096 = _
  exact Nat.mod_eq_of_lt (by omega)

/-- Block `kb`'s share of out[r, o]: the 1024 products of its columns. -/
def blockDot (X : SX.Idx → EReal) (W : SW.Idx → EReal) (r : Fin 8192) (o : Fin 11008) (kb : ℕ) : EReal :=
  ∑ kk : Fin 1024, X (ix2 r (kcol kb kk)) * W (ix2 o (kcol kb kk))

/-- The result after the first `n` blocks: their sums, plus the bias. -/
def partialOut (n : ℕ) (X : SX.Idx → EReal) (W : SW.Idx → EReal) (B : SB.Idx → EReal) : SO.Idx → EReal :=
  fun i => (∑ kb ∈ Finset.range n, blockDot X W (i 0) (i 1) kb) + B (ix2 (0 : Fin 1) (i 1))

/-- The whole result: every product of row `r` of X and row `o` of W, plus the bias. -/
def lin (X : SX.Idx → EReal) (W : SW.Idx → EReal) (B : SB.Idx → EReal) : SO.Idx → EReal :=
  fun i => (∑ q : Fin 4096, X (ix2 (i 0) q) * W (ix2 (i 1) q)) + B (ix2 (0 : Fin 1) (i 1))

theorem partialOut_one (X : SX.Idx → EReal) (W : SW.Idx → EReal) (B : SB.Idx → EReal) (i : SO.Idx) :
    partialOut 1 X W B i = blockDot X W (i 0) (i 1) 0 + B (ix2 (0 : Fin 1) (i 1)) := by
  unfold partialOut; rw [Finset.sum_range_one]

theorem partialOut_succ (n : ℕ) (X : SX.Idx → EReal) (W : SW.Idx → EReal) (B : SB.Idx → EReal) (i : SO.Idx) :
    partialOut (n + 1) X W B i = partialOut n X W B i + blockDot X W (i 0) (i 1) n := by
  unfold partialOut; rw [Finset.sum_range_succ, add_right_comm]

/-- Four blocks of 1024 columns are the 4096 columns. -/
theorem sum_blocks (f : Fin 4096 → EReal) :
    ∑ kb ∈ Finset.range 4, ∑ kk : Fin 1024, f (kcol kb kk) = ∑ q : Fin 4096, f q := by
  rw [← Fin.sum_univ_eq_sum_range (fun kb => ∑ kk : Fin 1024, f (kcol kb kk)) 4]
  rw [← Finset.sum_product' (f := fun (kb : Fin 4) (kk : Fin 1024) => f (kcol kb.val kk))]
  rw [Finset.univ_product_univ]
  refine Fintype.sum_equiv finProdFinEquiv _ _ fun p => ?_
  congr 1
  apply Fin.ext
  rw [kcol_val p.1.isLt]
  show _ = p.2.val + 1024 * p.1.val
  omega

theorem partialOut_four (X : SX.Idx → EReal) (W : SW.Idx → EReal) (B : SB.Idx → EReal) : partialOut 4 X W B = lin X W B := by
  funext i
  unfold partialOut lin blockDot
  rw [sum_blocks (fun q => X (ix2 (i 0) q) * W (ix2 (i 1) q))]

end Cert.Spec

end
-- ==== Proof.AccI.lean ====
/-
  The running sum the output tile holds, at the ideal instance (floats are extended reals). With X, W, B the three
  arrays the windows stage (x as [8192, 4096], the dequantised weight as [11008, 4096], the bias as [1, 11008]) the
  tile of point t = (m-tile, o-tile, k-tile) holds, on its part inside the array, the partial result after k-tile + 1
  blocks of the contraction: rows m-tile·1024 + r, columns o-tile·1408 + o of `partialOut (k-tile + 1) X W B`. The two
  steps of the body keep this: the first block plus the bias is the partial result after one block; the previous
  partial result plus this point's block is the next. An output column inside the array only reads weight rows and
  bias columns inside their arrays, so what the overhanging tiles hold past the arrays' ends is never used.
-/
import proofs.«410740_j18021682774288_3_alg».proof.Proof.ObligI
import proofs.«410740_j18021682774288_3_alg».proof.Proof.Geom
import proofs.«410740_j18021682774288_3_alg».proof.Proof.PayIdx
import proofs.«410740_j18021682774288_3_alg».proof.Proof.Spec

set_option maxRecDepth 16384

noncomputable section

open scoped BigOperators

namespace Cert.KernelIdeal.Hand

open Cert.KernelIdeal Cert.KernelIdeal.Gen Cert.KernelIdeal.Geom Cert.KernelIdeal.PayIdx Cert.Spec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The staged arrays as the pallas_call finds them. -/
abbrev Xarr (c : Dev nD) : S8192x4096.Idx → EReal := V (F := Ideal) m c (Pipeline.arrRef spec0 0)
abbrev Warr (c : Dev nD) : S11008x4096.Idx → EReal := V (F := Ideal) m c (Pipeline.arrRef spec0 1)
abbrev Barr (c : Dev nD) : S1x11008.Idx → EReal := V (F := Ideal) m c (Pipeline.arrRef spec0 2)

/-- The partial result after `n` blocks of the contraction, over the whole output array. -/
def Gk (n : ℕ) (c : Dev nD) : S8192x11008.Idx → EReal := partialOut n (Xarr m c) (Warr m c) (Barr m c)

/-- What the output tile holds after the body at point `t`. -/
def accI (c : Dev nD) (t : Fin cfg0.N) : S1024x1408.Idx → EReal :=
  win0_3.fill (grid0.coords t) (fun _ => 0) (((cfg0.win 3).blk t).view.read (Elt Ideal) (Gk m (t.val % 4 + 1) c))

theorem cut_accI (c : Dev nD) (t : Fin cfg0.N) :
    win0_3.cut (grid0.coords t) (accI m c t) = ((cfg0.win 3).blk t).view.read (Elt Ideal) (Gk m (t.val % 4 + 1) c) :=
  win0_3.cut_fill _ _ _

theorem ix2_congr {n0 n1 : Nat} {a a' : Fin n0} {b b' : Fin n1} (ha : a.val = a'.val) (hb : b.val = b'.val) :
    ix2 a b = ix2 a' b' := by rw [Fin.ext ha, Fin.ext hb]

/-- The column of the contraction a tile's column `kk` is, at point `t`. -/
theorem kcol_eq (t : Fin cfg0.N) (kk : Fin 1024) (h : t.val % 4 * 1024 + kk.val < 4096) :
    (⟨t.val % 4 * 1024 + kk.val, h⟩ : Fin 4096) = kcol (t.val % 4) kk :=
  Fin.ext (kcol_val (Nat.mod_lt _ (by norm_num)) kk).symm

/-! ## The tiles at an index -/

theorem xtile_apply (c : Dev nD) (t : Fin cfg0.N) (r kk : Fin 1024) (hr : t.val / 32 * 1024 + r.val < 8192) :
    xtile m c t (ix2 r kk) = Xarr m c (ix2 ⟨t.val / 32 * 1024 + r.val, hr⟩ (kcol (t.val % 4) kk)) := by
  have hk : t.val % 4 * 1024 + kk.val < 4096 := by have := kk.isLt; omega
  exact (iblk0_apply m c t (ix2 r kk) hr hk).trans
    (congrArg (Xarr m c) (ix2_congr rfl (kcol_val (Nat.mod_lt _ (by norm_num)) kk).symm))

/-- A weight tile that holds its block on the part inside the array, at a row inside the array. -/
theorem wtile_apply (c : Dev nD) (t : Fin cfg0.N) (X1 : S1408x1024.Idx → EReal)
    (hX : win0_1.cut (grid0.coords t) X1 = iblk m c 1 t) (o : Fin 1408) (kk : Fin 1024)
    (ho : t.val / 4 % 8 * 1408 + o.val < 11008) :
    X1 (ix2 o kk) = Warr m c (ix2 ⟨t.val / 4 % 8 * 1408 + o.val, ho⟩ (kcol (t.val % 4) kk)) := by
  have hk : t.val % 4 * 1024 + kk.val < 4096 := by have := kk.isLt; omega
  have hm : win0_1.moved (grid0.coords t) (ix2 o kk) = true := (moved1_iff t _).mpr ho
  have e := congrFun hX (fun a => ⟨(ix2 o kk a).val, (win0_1.moved_iff _ _).mp hm a⟩)
  have e' := iblk1_apply m c t (fun a => ⟨(ix2 o kk a).val, (win0_1.moved_iff _ _).mp hm a⟩) ho hk
  exact e.trans (e'.trans (congrArg (Warr m c) (ix2_congr rfl (kcol_val (Nat.mod_lt _ (by norm_num)) kk).symm)))

/-- A bias tile that holds its block on the part inside the array, at a column inside the array. -/
theorem btile_apply (c : Dev nD) (t : Fin cfg0.N) (X2 : S1x1408.Idx → EReal)
    (hX : win0_2.cut (grid0.coords t) X2 = iblk m c 2 t) (o : Fin 1408)
    (ho : t.val / 4 % 8 * 1408 + o.val < 11008) :
    X2 (ix2 (0 : Fin 1) o) = Barr m c (ix2 (0 : Fin 1) ⟨t.val / 4 % 8 * 1408 + o.val, ho⟩) := by
  have hm : win0_2.moved (grid0.coords t) (ix2 (0 : Fin 1) o) = true := (moved2_iff t _).mpr ho
  have e := congrFun hX (fun a => ⟨(ix2 (0 : Fin 1) o a).val, (win0_2.moved_iff _ _).mp hm a⟩)
  have e' := iblk2_apply m c t (fun a => ⟨(ix2 (0 : Fin 1) o a).val, (win0_2.moved_iff _ _).mp hm a⟩) ho
  exact e.trans e'

/-- The running sum at an index of the tile inside the array. -/
theorem accI_apply (c : Dev nD) (t : Fin cfg0.N) (r : Fin 1024) (o : Fin 1408)
    (hr : t.val / 32 * 1024 + r.val < 8192) (ho : t.val / 4 % 8 * 1408 + o.val < 11008)
    (X3 : S1024x1408.Idx → EReal) (hX : win0_3.cut (grid0.coords t) X3 = win0_3.cut (grid0.coords t) (accI m c t)) :
    X3 (ix2 r o) = Gk m (t.val % 4 + 1) c (ix2 ⟨t.val / 32 * 1024 + r.val, hr⟩ ⟨t.val / 4 % 8 * 1408 + o.val, ho⟩) := by
  have hm : win0_3.moved (grid0.coords t) (ix2 r o) = true := (moved3_iff t _).mpr ho
  have e := congrFun (hX.trans (cut_accI m c t)) (fun a => ⟨(ix2 r o a).val, (win0_3.moved_iff _ _).mp hm a⟩)
  have e' := read_blk3 (F := Ideal) c (Gk m (t.val % 4 + 1) c) t (fun a => ⟨(ix2 r o a).val, (win0_3.moved_iff _ _).mp hm a⟩) hr ho
  exact e.trans e'

/-- A tile's index inside the array, by coordinates. -/
theorem xinj3_eq (t : Fin cfg0.N) (j : (win0_3.xblock (grid0.coords t)).Idx) (h0 : (j 0).val < 1024) (h1 : (j 1).val < 1408) :
    win0_3.xinj (grid0.coords t) j = ix2 ⟨(j 0).val, h0⟩ ⟨(j 1).val, h1⟩ :=
  funext fun a => by match a with | ⟨0, _⟩ => rfl | ⟨1, _⟩ => rfl

/-! ## The two steps of the body keep the running sum -/

/-- First step of a contraction: the first block plus the bias is the partial result after one block. -/
theorem hfirstI (c : Dev nD) : ∀ t : Fin cfg0.N, t.val % 4 = 0 → ∀ (X1 : S1408x1024.Idx → EReal) (X2 : S1x1408.Idx → EReal),
    win0_1.cut (grid0.coords t) X1 = iblk m c 1 t → win0_2.cut (grid0.coords t) X2 = iblk m c 2 t →
    win0_3.cut (grid0.coords t) (k0_pay2 (F := Ideal) (xtile m c t) X1 X2) = win0_3.cut (grid0.coords t) (accI m c t) := by
  intro t h0 X1 X2 h1 h2
  rw [cut_accI]
  funext j
  obtain ⟨ho, hr1, ho1⟩ := xbound3 t j
  have hr := xrow3 t j
  rw [read_blk3 (F := Ideal) c _ t j hr ho]
  show k0_pay2 (F := Ideal) (xtile m c t) X1 X2 (win0_3.xinj (grid0.coords t) j) = _
  rw [xinj3_eq t j hr1 ho1, pay2_apply, pay1_apply, btile_apply m c t X2 h2 ⟨(j 1).val, ho1⟩ ho,
    Finset.sum_congr rfl fun kk _ => by
      rw [xtile_apply m c t ⟨(j 0).val, hr1⟩ kk hr, wtile_apply m c t X1 h1 ⟨(j 1).val, ho1⟩ kk ho]]
  rw [h0]
  unfold Gk
  rw [partialOut_one]
  rfl

/-- A later step: the previous partial result plus this point's block is the next partial result. -/
theorem hlaterI (c : Dev nD) : ∀ t : Fin cfg0.N, ¬ t.val % 4 = 0 → ∀ (X1 : S1408x1024.Idx → EReal) (X3 : S1024x1408.Idx → EReal),
    win0_1.cut (grid0.coords t) X1 = iblk m c 1 t →
    win0_3.cut (grid0.coords (prev t)) X3 = win0_3.cut (grid0.coords (prev t)) (accI m c (prev t)) →
    win0_3.cut (grid0.coords t) (k0_pay3 (F := Ideal) (xtile m c t) X1 X3) = win0_3.cut (grid0.coords t) (accI m c t) := by
  intro t h0 X1 X3 h1 h3
  rw [cut_accI]
  funext j
  obtain ⟨ho, hr1, ho1⟩ := xbound3 t j
  have hr := xrow3 t j
  have hN : t.val < 256 := lt_of_lt_of_eq t.isLt N_0
  have hp : (prev t).val = t.val - 1 := rfl
  have hr' : (prev t).val / 32 * 1024 + (j 0).val < 8192 := by rw [hp]; omega
  have ho' : (prev t).val / 4 % 8 * 1408 + (j 1).val < 11008 := by rw [hp]; omega
  rw [read_blk3 (F := Ideal) c _ t j hr ho]
  show k0_pay3 (F := Ideal) (xtile m c t) X1 X3 (win0_3.xinj (grid0.coords t) j) = _
  rw [xinj3_eq t j hr1 ho1, pay3_apply, pay1_apply,
    accI_apply m c (prev t) ⟨(j 0).val, hr1⟩ ⟨(j 1).val, ho1⟩ hr' ho' X3 h3,
    Finset.sum_congr rfl fun kk _ => by
      rw [xtile_apply m c t ⟨(j 0).val, hr1⟩ kk hr, wtile_apply m c t X1 h1 ⟨(j 1).val, ho1⟩ kk ho]]
  have e : Gk m ((prev t).val % 4 + 1) c (ix2 ⟨(prev t).val / 32 * 1024 + (j 0).val, hr'⟩ ⟨(prev t).val / 4 % 8 * 1408 + (j 1).val, ho'⟩)
      = Gk m (t.val % 4) c (ix2 ⟨t.val / 32 * 1024 + (j 0).val, hr⟩ ⟨t.val / 4 % 8 * 1408 + (j 1).val, ho⟩) := by
    rw [show (prev t).val % 4 + 1 = t.val % 4 by rw [hp]; omega]
    exact congrArg _ (ix2_congr (by show (prev t).val / 32 * 1024 + (j 0).val = t.val / 32 * 1024 + (j 0).val; rw [hp]; omega)
      (by show (prev t).val / 4 % 8 * 1408 + (j 1).val = t.val / 4 % 8 * 1408 + (j 1).val; rw [hp]; omega))
  rw [e]
  unfold Gk
  rw [partialOut_succ]
  rfl

/-! ## The output array after the run -/

/-- The whole result over the output array. -/
def Glin (c : Dev nD) : S8192x11008.Idx → EReal := lin (Xarr m c) (Warr m c) (Barr m c)

/-- Every write-back writes its block of the whole result, and the blocks written back cover the array: the output
    array ends holding the whole result. -/
theorem final_out (c : Dev nD) : (dats m (accI m) 0 c).arrAt 3 cfg0.N = Glin m c :=
  (dats m (accI m) 0 c).arrAt_eq_of_cover 3 (Glin m c)
    (fun t hf => (cut_accI m c t).trans (by
      rw [(flush0_3 t).mp hf]
      unfold Gk Glin
      rw [partialOut_four]))
    (cover3 c)

end Cert.KernelIdeal.Hand

end
-- ==== Proof.RunI.lean ====
/-
  The launch: @main runs its host operations, the pallas_call at every grid point, and the closing reshape, to a final
  state in which the windows' arrays hold what the proof data says and every other buffer what it held; in particular
  the five arguments are unchanged. Two forms: with the output tile's contents named point by point (the output
  array then ends at `Dat.arrAt 3 N`), and with nothing said of the output (the frame alone).
-/
import proofs.«410740_j18021682774288_3_alg».proof.Proof.ObligI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (acc : Dev nD → Fin cfg0.N → S1024x1408.Idx → Elt F .f32)

/-! ## With the output tile named -/

set_option backward.isDefEq.respectTransparency.types false in
theorem run_main (hbody : ∀ c, BodyObligationLoose (dats m acc 0 c) (defs₀ (F := F)) Variants.none () Set.univ) :
    θ_run defs (onTc (τ := τ) (main (F := F))) (s₀ m ρ)
      (Pipeline.FramePost cfgs (dats m acc) 0 (Pipeline.afterTail₀ cfgs (dats m acc) 0 (V0 m) [hostOps1])) :=
  Pipeline.θ_run_frame_around cfgs (dats m acc) (0 : Fin 1) launch0 defs₀ Variants.none m ρ main
    (hbody := hbody) (hshare := fun c => (dats m acc 0 c).share_full fun _ => rfl)
    (howed := fun _ _ => rfl) (V₀ := V0 m) (opss := [hostOps1]) (hsub := sfx_sub) (hfresh := sfx_fresh) (hkeep := sfx_keeps)
    (hmain := hmain m Variants.none) (hA := A_eq m acc) (hΦ := fun _ _ => rfl)

/-! ## With nothing said of the output tile -/

/-- Only the output window is forgotten. -/
abbrev fgt3 : Fin cfg0.W → Bool := fun | 0 => false | 1 => false | 2 => false | 3 => true | ⟨_ + 4, h⟩ => absurd h (Nat.not_lt.2 (Nat.le_add_left _ _))

set_option maxHeartbeats 1000000 in
theorem obligation_forget (c : Dev nD) :
    BodyObligationLoose (dats m acc 0 c) (defs₀ (F := F)) Variants.none () Set.univ fgt3 := fun t => by
  rw [bigSep_W0, bigSep_W0]
  simp only
  rw [show (dats m acc 0 c).Φ t.succ = (dats m acc 0 c).Φ t.castSucc from rfl,
    show (dats m acc 0 c).owesAt () t.succ = (dats m acc 0 c).owesAt () t.castSucc from rfl]
  change _ ⊢ wp frame (wpE (defs₀ (F := F)) Variants.none c none) Set.univ (bodyAt0 t) _
  unfold bodyAt0
  iintro ⟨HΦ, Ho, ⟨%d0, H0⟩, ⟨%d1, H1⟩, ⟨%d2, H2⟩, ⟨%X3, H3⟩⟩
  rw [before0 m acc c t d0, before1 m acc c t d1, before2 m acc c t d2]
  by_cases h0 : t.val % 4 = 0
  · have key := sound_first (F := F) c (grid0.coords t) ((hcond1 t).mpr h0) (fun h => (hcond2 t).mp h h0)
      (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (xtile m c t) (win0_1.fill (grid0.coords t) d1 (iblk m c 1 t)) (win0_2.fill (grid0.coords t) d2 (iblk m c 2 t)) X3 Set.univ
    iapply (key _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]
    · iexists d1
      rw [show (win0 1).cut (grid0.coords t) ((dats m acc 0 c).after 1 t) = iblk m c 1 t from win0_1.cut_fill _ _ _]
      iexact H1
    isplitl [H2]
    · iexists d2
      rw [show (win0 2).cut (grid0.coords t) ((dats m acc 0 c).after 2 t) = iblk m c 2 t from win0_2.cut_fill _ _ _]
      iexact H2
    · iexists _; iexact H3
  · have key := sound_later (F := F) c (grid0.coords t) (fun h => h0 ((hcond1 t).mp h)) ((hcond2 t).mpr h0)
      (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (xtile m c t) (win0_1.fill (grid0.coords t) d1 (iblk m c 1 t)) (win0_2.fill (grid0.coords t) d2 (iblk m c 2 t)) X3 Set.univ
    iapply (key _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]
    · iexists d1
      rw [show (win0 1).cut (grid0.coords t) ((dats m acc 0 c).after 1 t) = iblk m c 1 t from win0_1.cut_fill _ _ _]
      iexact H1
    isplitl [H2]
    · iexists d2
      rw [show (win0 2).cut (grid0.coords t) ((dats m acc 0 c).after 2 t) = iblk m c 2 t from win0_2.cut_fill _ _ _]
      iexact H2
    · iexists _; iexact H3

/-- The closing reshape writes the result buffer only. -/
theorem sfx_writes : ∀ ops ∈ ([hostOps1] : List (List (HloOp τ sig (Elt F)))), ∀ op ∈ ops, ∀ b : Ref sig .tc,
    Proc.devRef .tc b ∈ op.writes → b ∈ ({main_v22} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  rw [Finset.mem_singleton]
  by_contra hne
  exact StableHlo.devRef_ne_of_ne hne hb

set_option backward.isDefEq.respectTransparency.types false in
theorem run_forget :
    θ_run defs (onTc (τ := τ) (main (F := F))) (s₀ m ρ)
      (RDat.FramePostR cfg0 (fun c => (dats m acc 0 c).toRForget fgt3) {main_v22} (V m)) :=
  Pipeline.RDat.θ_run_frame_around_T cfgs (0 : Fin 1) launch0 defs₀ Variants.none
    (fun c => (dats m acc 0 c).toRForget fgt3) {main_v22} m ρ main
    (hbody := fun c => (obligation_forget m acc c).toRForget)
    (hshare := fun c => ((dats m acc 0 c).toRForget fgt3).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m acc) (hΦ := fun _ _ => rfl)

/-- The frame: every execution ends, faults nowhere, and leaves the five arguments as they were. -/
theorem frame_forget :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c),
     ((h c).2 main_arg3 (Finset.mem_sdiff.mpr ⟨Pipeline.mem_restRefs_of main_arg3 (by decide) (by decide), by decide⟩)).trans (V_main_arg3 m c),
     ((h c).2 main_arg4 (Finset.mem_sdiff.mpr ⟨Pipeline.mem_restRefs_of main_arg4 (by decide) (by decide), by decide⟩)).trans (V_main_arg4 m c)⟩)
    (run_forget m ρ fun _ _ _ => Classical.choice (Elt.nonempty F _))

end Cert.KernelIdeal.Hand

end
-- ==== Proof.HostIdx.lean ====
/-
  What the host operations of @main leave in the three arrays the kernel's windows stage, and what the one host
  operation after the region makes of the kernel's result, all at the ideal instance (a float an extended real, a
  change of format the identity).

  * the activations: the argument [4,2048,4096] flattened row-major to [8192,4096], so row r is (r / 2048, r % 2048);
  * the weight: the dequantisation of the packed words — each word arithmetically shifted right by 4 and the same word
    masked by 15, both as floats, interleaved, minus the group's zero point, times the group's scale — as ONE term
    `deq` of the three argument arrays;
  * the bias: [11008] read as the single row of [1,11008];
  * the result: [8192,11008] unflattened to [4,2048,11008], so (b, s) reads row b * 2048 + s.
-/
import proofs.«410740_j18021682774288_3_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.HostIdx

open Cert.KernelIdeal Cert.KernelIdeal.Gen Idealize.ShloMosaic Idealize.ShloMosaic.ValueIdx Idealize.ShloMosaic.TcCoe Idealize.SL.Sem Idealize.ShloMosaic.StableHlo

/-- The dequantised weight [11008,4096] as a function of the packed words `x1`, the scales `x2` and the zero points
    `x3`: @main's operations from the constant 4 to the last reshape, in the program's order, without the final
    narrowing. Each packed word gives two values: the word arithmetically shifted right by 4 and the word masked by 15,
    both as floats, joined on a new last axis and flattened to 32 groups of 128; then (value - zero point) * scale, each
    group's zero point and scale broadcast along the group; then flattened to a row of 4096. -/
def deq (x1 : S11008x2048.Idx → BitVec 32) (x2 x3 : S11008x32.Idx → EReal) : S11008x4096.Idx → EReal :=
  shapeCast _ (mulf (F := Ideal) (subf (F := Ideal) (shapeCast _ (concatenate S11008x2048x2 2 [⟨S11008x2048x1, (broadcastInDim S11008x2048x1 ![0, 1] bcast_S11008x2048_S11008x2048x1_0_1 (sitofp (F := Ideal) .f32 (Host.shrsi (x1) (broadcastInDim S11008x2048 ![] bcast_S_S11008x2048 (constantI S_ 32 4#32)))))⟩, ⟨S11008x2048x1, (broadcastInDim S11008x2048x1 ![0, 1] bcast_S11008x2048_S11008x2048x1_0_1 (sitofp (F := Ideal) .f32 (andi (x1) (broadcastInDim S11008x2048 ![] bcast_S_S11008x2048 (constantI S_ 32 15#32)))))⟩] concatenates_S11008x2048x1_S11008x2048x1_S11008x2048x2_d2) shapeCasts_S11008x2048x2_S11008x32x128) (broadcastInDim S11008x32x128 ![0, 1, 2] bcast_S11008x32x1_S11008x32x128_0_1_2 (broadcastInDim S11008x32x1 ![0, 1] bcast_S11008x32_S11008x32x1_0_1 (x3)))) (broadcastInDim S11008x32x128 ![0, 1, 2] bcast_S11008x32x1_S11008x32x128_0_1_2 (broadcastInDim S11008x32x1 ![0, 1] bcast_S11008x32_S11008x32x1_0_1 (x2)))) shapeCasts_S11008x32x128_S11008x4096

/-! ## The three reshapes read at an index -/

/-- The narrowing of the row-major flattening [4,2048,4096] → [8192,4096], read at row `r` and column `q`: the source
    at (r / 2048, r % 2048, q). Both positions are r * 4096 + q; the narrowing is the identity on extended reals. -/
private theorem reshape_x (x : S4x2048x4096.Idx → EReal) (r : Fin 8192) (q : Fin 4096) :
    truncf (F := Ideal) .bf16 (shapeCast S8192x4096 x shapeCasts_S4x2048x4096_S8192x4096) bitsLt_bf16_f32 (ix2 r q)
      = x (ix3 ⟨r.val / 2048, by omega⟩ ⟨r.val % 2048, by omega⟩ q) := by
  rw [truncf_apply]
  refine shapeCast_apply x shapeCasts_S4x2048x4096_S8192x4096 (ix2 r q) _ ?_
  rw [Shape.rowMajor_val_three, Shape.rowMajor_val_two]
  show (r.val / 2048 * 2048 + r.val % 2048) * 4096 + q.val = r.val * 4096 + q.val
  omega

/-- The reshape [11008] → [1,11008] read at (0, o) is the source at o: both positions are o. -/
private theorem reshape_b (x : S11008.Idx → EReal) (o : Fin 11008) :
    shapeCast S1x11008 x shapeCasts_S11008_S1x11008 (ix2 (0 : Fin 1) o) = x (ix1 o) := by
  refine shapeCast_apply x shapeCasts_S11008_S1x11008 (ix2 (0 : Fin 1) o) _ ?_
  rw [Shape.rowMajor_val_one, Shape.rowMajor_val_two]
  show o.val = (0 : Fin 1).val * 11008 + o.val
  simp

/-- The reshape [8192,11008] → [4,2048,11008] read at (b, s, o) is the source at (b * 2048 + s, o): both positions are
    (b * 2048 + s) * 11008 + o. -/
private theorem reshape_out (x : S8192x11008.Idx → EReal) (b : Fin 4) (s : Fin 2048) (o : Fin 11008) :
    shapeCast S4x2048x11008 x shapeCasts_S8192x11008_S4x2048x11008 (ix3 b s o)
      = x (ix2 ⟨b.val * 2048 + s.val, by omega⟩ o) := by
  refine shapeCast_apply x shapeCasts_S8192x11008_S4x2048x11008 (ix3 b s o) _ ?_
  rw [Shape.rowMajor_val_two, Shape.rowMajor_val_three]
  rfl

/-! ## The arrays as the region finds them -/

variable (m : (ℓ : Loc nD τ sig) → Buf (Elt Ideal) ℓ)

/-- The activation array at the region's entry, as a term: the argument flattened, then narrowed. No later host
    operation writes it. -/
theorem V_x_term (c : Dev nD) :
    (V (F := Ideal) m c main_v1 : S8192x4096.Idx → EReal)
      = truncf (F := Ideal) .bf16 (shapeCast S8192x4096 (m ((c : Thread nD τ).loc main_arg0) : S4x2048x4096.Idx → EReal) shapeCasts_S4x2048x4096_S8192x4096) bitsLt_bf16_f32 := by
  show StableHlo.after hostOps0 (fun b => m (c, b)) (Proc.devRef .tc main_v1) = _
  after_results
  rfl

/-- The activation array at (r, q) is the argument at (r / 2048, r % 2048, q). -/
theorem V_x (c : Dev nD) (r : Fin 8192) (q : Fin 4096) :
    (V (F := Ideal) m c main_v1 : S8192x4096.Idx → EReal) (ix2 r q)
      = (m ((c : Thread nD τ).loc main_arg0) : S4x2048x4096.Idx → EReal) (ix3 ⟨r.val / 2048, by omega⟩ ⟨r.val % 2048, by omega⟩ q) :=
  (congrFun (V_x_term m c) (ix2 r q)).trans (reshape_x _ r q)

/-- The weight array at the region's entry is the dequantisation of the three argument arrays (the final narrowing is
    the identity on extended reals). -/
theorem V_w (c : Dev nD) :
    (V (F := Ideal) m c main_v19 : S11008x4096.Idx → EReal)
      = deq (m ((c : Thread nD τ).loc main_arg1)) (m ((c : Thread nD τ).loc main_arg2)) (m ((c : Thread nD τ).loc main_arg3)) := by
  show StableHlo.after hostOps0 (fun b => m (c, b)) (Proc.devRef .tc main_v19) = _
  after_results
  rfl

/-- The bias array at the region's entry, as a term: the argument read as one row. -/
theorem V_b_term (c : Dev nD) :
    (V (F := Ideal) m c main_v20 : S1x11008.Idx → EReal)
      = shapeCast S1x11008 (m ((c : Thread nD τ).loc main_arg4) : S11008.Idx → EReal) shapeCasts_S11008_S1x11008 := by
  show StableHlo.after hostOps0 (fun b => m (c, b)) (Proc.devRef .tc main_v20) = _
  after_results
  rfl

/-- The bias array at (0, o) is the argument at o. -/
theorem V_b (c : Dev nD) (o : Fin 11008) :
    (V (F := Ideal) m c main_v20 : S1x11008.Idx → EReal) (ix2 (0 : Fin 1) o) = (m ((c : Thread nD τ).loc main_arg4) : S11008.Idx → EReal) (ix1 o) :=
  (congrFun (V_b_term m c) (ix2 (0 : Fin 1) o)).trans (reshape_b _ o)

/-! ## The result after the region -/

/-- The program's result, as a term: the reshape of the array the region's fourth window leaves, for any proof data. -/
theorem tail_out_term (dats : (p : Fin 1) → (c : Dev nD) → Pipeline.Dat τ (Elt Ideal) Unit ℕ (UR sig nD τ) ℕ (cfgs p) c) (c : Dev nD) :
    (Pipeline.afterTail₀ cfgs dats 0 (V0 m) [hostOps1] c main_v22 : S4x2048x11008.Idx → EReal)
      = shapeCast S4x2048x11008 ((dats 0 c).arrAt 3 cfg0.N : S8192x11008.Idx → EReal) shapeCasts_S8192x11008_S4x2048x11008 := by
  unfold Pipeline.afterTail₀
  show StableHlo.after hostOps1 _ (Proc.devRef .tc main_v22) = _
  after_results
  rw [Pipeline.withArrays_arr spec0 launch0.win.arr_inj c _ _ 3]
  rfl

/-- The program's result at (b, s, o) is the region's output array at (b * 2048 + s, o). -/
theorem tail_out (dats : (p : Fin 1) → (c : Dev nD) → Pipeline.Dat τ (Elt Ideal) Unit ℕ (UR sig nD τ) ℕ (cfgs p) c) (c : Dev nD)
    (b : Fin 4) (s : Fin 2048) (o : Fin 11008) :
    (Pipeline.afterTail₀ cfgs dats 0 (V0 m) [hostOps1] c main_v22 : S4x2048x11008.Idx → EReal) (ix3 b s o)
      = ((dats 0 c).arrAt 3 cfg0.N : S8192x11008.Idx → EReal) (ix2 ⟨b.val * 2048 + s.val, by omega⟩ o) :=
  (congrFun (tail_out_term m dats c) (ix3 b s o)).trans (reshape_out _ b s o)

end Cert.KernelIdeal.HostIdx

end
-- ==== Proof.DeqRef.lean ====
/-
  The kernel program's dequantised weight is the reference program's: both compute it from the packed words, the
  scales and the zero points by the same operations in the same order, over the same literal shapes (each program
  declares them in its own namespace), so the two terms agree once the reference's stages are opened; the side
  conditions the two programs cite are propositions over those shapes.
-/
import proofs.«410740_j18021682774288_3_alg».proof.Proof.HostIdx
import proofs.«410740_j18021682774288_3_alg».proof.Proof.Gen.ReferenceIdeal.Read

noncomputable section

namespace Cert.KernelIdeal.HostIdx

open Cert.KernelIdeal Idealize.ShloMosaic

open Cert.ReferenceIdeal.Read in
/-- The weight the kernel's second window stages is the reference's value before its `dot_general`. -/
theorem deq_eq_ref (x1 : S11008x2048.Idx → BitVec 32) (x2 x3 : S11008x32.Idx → EReal) :
    deq x1 x2 x3 = Cert.ReferenceIdeal.Read.val_main_v16 (F := Ideal) x1 x2 x3 := by
  unfold deq val_main_v16 val_main_v15 val_main_v14 val_main_v13 val_main_v12 val_main_v11 val_main_v10 val_main_v9
    val_main_v8 val_main_v7 val_main_v6 val_main_v5 val_main_v4 val_main_v3 val_main_v2 val_main_v1 val_main_v0
    val_main_c_0 val_main_c
  rfl

end Cert.KernelIdeal.HostIdx

end
-- ==== Proof.RefSide.lean ====
/-
  The reference's result at one index (b, s, o): the sum over the 4096 columns q of x[b, s, q] times the
  dequantised weight at [o, q], plus bias[o] — read off the reference's operations one at a time.
-/
import proofs.«410740_j18021682774288_3_alg».proof.Proof.Gen.ReferenceIdeal.Read

noncomputable section

open scoped BigOperators

namespace Cert.RefSide

open Cert.ReferenceIdeal Cert.ReferenceIdeal.Read Idealize.ShloMosaic Idealize.ShloMosaic.ValueIdx

theorem ref_apply (x0 : S4x2048x4096.Idx → EReal) (x1 : S11008x2048.Idx → BitVec 32) (x2 x3 : S11008x32.Idx → EReal)
    (x4 : S11008.Idx → EReal) (b : Fin 4) (s : Fin 2048) (o : Fin 11008) :
    val_main_v20 (F := Ideal) x0 x1 x2 x3 x4 (ix3 b s o)
      = (∑ q : Fin 4096, x0 (ix3 b s q) * val_main_v16 (F := Ideal) x1 x2 x3 (ix2 o q)) + x4 (ix1 o) := by
  rw [val_main_v20_apply, val_main_v17_apply, val_main_v19_apply, val_main_v18_apply]
  have e1 : ∀ q : Fin 4096, lidx_main_v17 (ix3 b s o) q = ix3 b s q := fun q =>
    funext fun a => by match a with | ⟨0, _⟩ => rfl | ⟨1, _⟩ => rfl | ⟨2, _⟩ => rfl
  have e2 : ∀ q : Fin 4096, ridx_main_v17 (ix3 b s o) q = ix2 o q := fun q =>
    funext fun a => by match a with | ⟨0, _⟩ => rfl | ⟨1, _⟩ => rfl
  have e3 : idx_main_v18 (idx_main_v19 (ix3 b s o)) = ix1 o :=
    funext fun a => by match a with | ⟨0, _⟩ => rfl
  simp only [e1, e2, e3]
  rfl

end Cert.RefSide

end
-- ==== Proof.BridgeI.lean ====
/-
  The two programs compute one function. The kernel's result at (b, s, o) is the output array of the pallas_call at
  row b·2048 + s, column o, reshaped; that array is Σ_q X[row, q] · W[o, q] + B[0, o] with X the reshaped x, W the
  dequantised weight and B the reshaped bias (a change of float format is the identity on extended reals); the
  reference's is Σ_q x[b, s, q] · W[o, q] + bias[o] with the same W, term for term.
-/
import proofs.«410740_j18021682774288_3_alg».proof.Proof.AccI
import proofs.«410740_j18021682774288_3_alg».proof.Proof.RunI
import proofs.«410740_j18021682774288_3_alg».proof.Proof.HostIdx
import proofs.«410740_j18021682774288_3_alg».proof.Proof.DeqRef
import proofs.«410740_j18021682774288_3_alg».proof.Proof.RefSide

set_option maxRecDepth 16384

noncomputable section

open scoped BigOperators

namespace Cert.KernelIdeal.Hand

open Cert.KernelIdeal Cert.KernelIdeal.Gen Cert.KernelIdeal.HostIdx Cert.Spec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem ix3_congr {n0 n1 n2 : Nat} {a a' : Fin n0} {b b' : Fin n1} {c c' : Fin n2} (ha : a.val = a'.val) (hb : b.val = b'.val)
    (hc : c.val = c'.val) : ix3 a b c = ix3 a' b' c' := by rw [Fin.ext ha, Fin.ext hb, Fin.ext hc]

/-- The kernel's result at one index is the reference's term there. -/
theorem out_value (c : Dev nD) (b : Fin 4) (s : Fin 2048) (o : Fin 11008) :
    (Pipeline.afterTail₀ cfgs (dats m (accI m)) 0 (V0 m) [hostOps1] c main_v22 : S4x2048x11008.Idx → EReal) (ix3 b s o)
      = Cert.ReferenceIdeal.Read.val_main_v20 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (ix3 b s o) := by
  have hrow : b.val * 2048 + s.val < 8192 := by have := b.isLt; have := s.isLt; omega
  rw [tail_out m (dats m (accI m)) c b s o, final_out m c, Cert.RefSide.ref_apply]
  show (∑ q : Fin 4096, Xarr m c (ix2 ⟨b.val * 2048 + s.val, hrow⟩ q) * Warr m c (ix2 o q)) + Barr m c (ix2 (0 : Fin 1) o) = _
  have hB : Barr m c (ix2 (0 : Fin 1) o) = (m ((c : Thread nD τ).loc main_arg4) : S11008.Idx → EReal) (ix1 o) := V_b m c o
  have hW : Warr m c = Cert.ReferenceIdeal.Read.val_main_v16 (F := Ideal) (m ((c : Thread nD τ).loc main_arg1))
      (m ((c : Thread nD τ).loc main_arg2)) (m ((c : Thread nD τ).loc main_arg3)) := (V_w m c).trans (deq_eq_ref _ _ _)
  have hX : ∀ q : Fin 4096, Xarr m c (ix2 ⟨b.val * 2048 + s.val, hrow⟩ q)
      = (m ((c : Thread nD τ).loc main_arg0) : S4x2048x4096.Idx → EReal) (ix3 b s q) := fun q =>
    (V_x m c ⟨b.val * 2048 + s.val, hrow⟩ q).trans (congrArg _ (ix3_congr
      (by show (b.val * 2048 + s.val) / 2048 = b.val; have := s.isLt; omega)
      (by show (b.val * 2048 + s.val) % 2048 = s.val; have := s.isLt; omega) rfl))
  rw [hB, hW]
  congr 1
  exact Finset.sum_congr rfl fun q _ => by rw [hX q]

end Cert.KernelIdeal.Hand

end
-- ==== Proof.lean ====
/-
  Linear4bit as a tiled matmul, against its jnp reference, over the extended reals.

  Both programs dequantise the packed int4 weight by the same host operations (nibbles out, interleave, minus the
  group's zero, times the group's scale) to W : [11008, 4096]. The reference then computes out[b, s, o] =
  Σ_q x[b, s, q] · W[o, q] + bias[o]. The kernel reshapes x to X : [8192, 4096] and the bias to B : [1, 11008], and a
  pallas_call on the grid (8, 8, 4) accumulates, into the output tile of rows m·1024‥ and columns o·1408‥, the four
  blocks of 1024 columns of the contraction one grid point at a time: the first point stores block 0's products plus
  the bias, each later point adds its block. Addition of extended reals is commutative and associative, so the four
  block sums and the bias add up to the reference's single sum whatever the order; no finiteness is needed. The
  last column tile overhangs the arrays (11008 = 7·1408 + 1152): the weight's and bias's staging buffers hold words
  nothing names past the arrays' ends, and so does the output tile in the columns computed from them; those columns
  are never written back, and a column inside the array reads only rows and columns inside the arrays.

  The modules: Spec (the sum and its four blocks), BodyI / BodyB (the body's two steps as triples), DataI / DataB (the
  proof data and what the body finds in each buffer), ObligI / ObligB (the body obligation), RunI / RunB (the launch
  and the frames), PayIdx (the body's values at an index), Geom (where a tile's element sits in its array, and that
  the tiles written back cover the output), HostIdx / DeqRef (the arrays the host operations leave), AccI (the
  running sum), RefSide (the reference at an index), BridgeI (the two results are one term).
-/
import proofs.«410740_j18021682774288_3_alg».proof.Defs
import proofs.«410740_j18021682774288_3_alg».proof.Proof.Gen.Kernel
import proofs.«410740_j18021682774288_3_alg».proof.Proof.Gen.KernelIdeal
import proofs.«410740_j18021682774288_3_alg».proof.Proof.Gen.ReferenceIdeal
import proofs.«410740_j18021682774288_3_alg».proof.Proof.Gen.Pre_finite_inputs
import proofs.«410740_j18021682774288_3_alg».proof.Proof.RunB
import proofs.«410740_j18021682774288_3_alg».proof.Proof.BridgeI
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel runs to the end and leaves its arguments unchanged. -/
theorem frame_k : Cert.frame_Kernel (hKernel := Cert.Kernel.Gen.facts) (hPre_finite_inputs := Cert.Pre_finite_inputs.Gen.facts) :=
  fun m ρ _ => Cert.Kernel.Hand.frame_forget (F := Bits) m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Hand.frame_forget (F := Ideal) m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

open Cert.KernelIdeal Cert.KernelIdeal.Gen Cert.KernelIdeal.Hand in
/-- From memories that agree on the arguments the two idealized programs end with one result: the reference's term
    of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v20 (F := Ideal) (m ((c : Thread nD τ).loc main_arg0)) (m ((c : Thread nD τ).loc main_arg1))
      (m ((c : Thread nD τ).loc main_arg2)) (m ((c : Thread nD τ).loc main_arg3)) (m ((c : Thread nD τ).loc main_arg4)), ?_, ?_⟩
  · refine (θ_run defs _ _).mono (fun r h c => ⟨?_,
        ((h c).2 main_arg0 (Pipeline.mem_restRefs_of main_arg0 (by decide) (by decide))).trans (W_main_arg0 m _ c),
        ((h c).2 main_arg1 (Pipeline.mem_restRefs_of main_arg1 (by decide) (by decide))).trans (W_main_arg1 m _ c),
        ((h c).2 main_arg2 (Pipeline.mem_restRefs_of main_arg2 (by decide) (by decide))).trans (W_main_arg2 m _ c),
        ((h c).2 main_arg3 (Pipeline.mem_restRefs_of main_arg3 (by decide) (by decide))).trans (W_main_arg3 m _ c),
        ((h c).2 main_arg4 (Pipeline.mem_restRefs_of main_arg4 (by decide) (by decide))).trans (W_main_arg4 m _ c)⟩)
      (run_main m ρ (accI m) fun c => obligation m (accI m) c (hfirstI m c) (hlaterI m c))
    refine ((h c).2 main_v22 (Pipeline.mem_restRefs_of main_v22 (by decide) (by decide))).trans ?_
    funext i
    obtain ⟨b, s, o, rfl⟩ : ∃ (b : Fin 4) (s : Fin 2048) (o : Fin 11008), i = ix3 b s o := ⟨i 0, i 1, i 2, eq_ix3 i⟩
    exact out_value m c b s o
  · refine (θ_run Cert.ReferenceIdeal.defs _ _).mono (fun _ h c => ⟨?_, (h c).2⟩)
      (Cert.ReferenceIdeal.Value.run (F := Ideal) m' ρ')
    rw [(h c).1, Cert.ReferenceIdeal.Read.val_main_v20_eq, (hagree c).1, (hagree c).2.1, (hagree c).2.2.1, (hagree c).2.2.2.1,
      (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
